-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S16384 : Shape := ⟨1, ![16384]⟩
abbrev S2048x2048 : Shape := ⟨2, ![2048, 2048]⟩
abbrev S2048 : Shape := ⟨1, ![2048]⟩
abbrev S512x256 : Shape := ⟨2, ![512, 256]⟩
abbrev S512 : Shape := ⟨1, ![512]⟩
abbrev S8x64 : Shape := ⟨2, ![8, 64]⟩
abbrev S8 : Shape := ⟨1, ![8]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S8x64 : S_.BroadcastsInDim S8x64 (![] : Fin 0 → Fin S8x64.rank)
  reducesTo_S8x64_S_d0_1 : S8x64.ReducesTo [0, 1] S_
  bcast_S_S8 : S_.BroadcastsInDim S8 (![] : Fin 0 → Fin S8.rank)
  reducesTo_S8_S_d0 : S8.ReducesTo [0] S_
  bcast_S_S16384 : S_.BroadcastsInDim S16384 (![] : Fin 0 → Fin S16384.rank)
  reducesTo_S16384_S_d0 : S16384.ReducesTo [0] S_

variable [Facts]

def fn_part2 {F : FTy → Type} [FloatOps F] (main_arg1 : IVec S16384 32) (main_v33 : IVec S_ 1) : IVec S_ 1 :=
  let main_c_12 : IVec S_ 32 := constantI S_ 32 0#32
  let main_v34 : IVec S16384 32 := broadcastInDim S16384 ![] bcast_S_S16384 main_c_12
  let main_v35 : IVec S16384 1 := cmpi .sge main_arg1 main_v34
  let main_c_13 : IVec S_ 32 := constantI S_ 32 8#32
  let main_v36 : IVec S16384 32 := broadcastInDim S16384 ![] bcast_S_S16384 main_c_13
  let main_v37 : IVec S16384 1 := cmpi .slt main_arg1 main_v36
  let main_v38 : IVec S16384 1 := andi main_v35 main_v37
  let main_c_14 : IVec S_ 1 := constantI S_ 1 1#1
  let main_v39 : IVec S_ 1 := (fun x v => Host.reduce IntOp.andi x v reducesTo_S16384_S_d0 h_S_) main_v38 main_c_14
  let main_v40 : IVec S_ 1 := andi main_v33 main_v39
  main_v40

def fn_part1 {F : FTy → Type} [FloatOps F] (main_arg1 : IVec S16384 32) (main_arg5 : FVec F S512 .f32) (main_arg6 : FVec F S8x64 .f32) (main_arg7 : FVec F S8 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S8x64 .f32 := Host.absf main_arg6
  let main_cst_8 : FVec F S_ .f32 := constant S_ .f32 0x7F800000#32
  let main_v25 : FVec F S8x64 .f32 := broadcastInDim S8x64 ![] bcast_S_S8x64 main_cst_8
  let main_v26 : IVec S8x64 1 := cmpf .olt main_v24 main_v25
  let main_c_9 : IVec S_ 1 := constantI S_ 1 1#1
  let main_v27 : IVec S_ 1 := (fun x v => Host.reduce IntOp.andi x v reducesTo_S8x64_S_d0_1 h_S_) main_v26 main_c_9
  let main_v28 : IVec S_ 1 := andi main_v23 main_v27
  let main_v29 : FVec F S8 .f32 := Host.absf main_arg7
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg1 main_v33

def fn {F : FTy → Type} [FloatOps F] (main_arg0 : FVec F S16384x2048 .f32) (main_arg1 : IVec S16384 32) (main_arg2 : FVec F S2048x2048 .f32) (main_arg3 : FVec F S2048 .f32) (main_arg4 : FVec F S512x256 .f32) (main_arg5 : FVec F S512 .f32) (main_arg6 : FVec F S8x64 .f32) (main_arg7 : FVec F S8 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x2048 .f32 := Host.absf main_arg2
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S512x256 .f32 := Host.absf main_arg4
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg1 main_arg5 main_arg6 main_arg7 main_v13 main_v16
-- ==== Kernel.lean ====
abbrev S16384x2048 : Shape := ⟨2, ![16384, 2048]⟩
abbrev S16384 : Shape := ⟨1, ![16384]⟩
abbrev S2048x2048 : Shape := ⟨2, ![2048, 2048]⟩
abbrev S2048 : Shape := ⟨1, ![2048]⟩
abbrev S512x256 : Shape := ⟨2, ![512, 256]⟩
abbrev S512 : Shape := ⟨1, ![512]⟩
abbrev S8x64 : Shape := ⟨2, ![8, 64]⟩
abbrev S8 : Shape := ⟨1, ![8]⟩
abbrev S1x2048 : Shape := ⟨2, ![1, 2048]⟩
abbrev S8x64x256 : Shape := ⟨3, ![8, 64, 256]⟩
abbrev S_ : Shape := ⟨0, ![]⟩
abbrev S8x128x256 : Shape := ⟨3, ![8, 128, 256]⟩
abbrev S256x8x128 : Shape := ⟨3, ![256, 8, 128]⟩
abbrev S256x1024 : Shape := ⟨2, ![256, 1024]⟩
abbrev S8x128 : Shape := ⟨2, ![8, 128]⟩
abbrev S1x1024 : Shape := ⟨2, ![1, 1024]⟩
abbrev S64x8 : Shape := ⟨2, ![64, 8]⟩
abbrev S1x8 : Shape := ⟨2, ![1, 8]⟩
abbrev S16384x1 : Shape := ⟨2, ![16384, 1]⟩
abbrev S512x2048 : Shape := ⟨2, ![512, 2048]⟩
abbrev S512x1 : Shape := ⟨2, ![512, 1]⟩
abbrev S512x8 : Shape := ⟨2, ![512, 8]⟩
abbrev S512x1024 : Shape := ⟨2, ![512, 1024]⟩
abbrev S512x128 : Shape := ⟨2, ![512, 128]⟩
abbrev S512x64 : Shape := ⟨2, ![512, 64]⟩
abbrev S16384x1x1 : Shape := ⟨3, ![16384, 1, 1]⟩

abbrev nBuf : Space → Nat
  | .hbm => 36
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S16384, .i32⟩
  | .hbm, ⟨2, _⟩ => ⟨S2048x2048, .f32⟩
  | .hbm, ⟨3, _⟩ => ⟨S2048, .f32⟩
  | .hbm, ⟨4, _⟩ => ⟨S512x256, .f32⟩
  | .hbm, ⟨5, _⟩ => ⟨S512, .f32⟩
  | .hbm, ⟨6, _⟩ => ⟨S8x64, .f32⟩
  | .hbm, ⟨7, _⟩ => ⟨S8, .f32⟩
  | .hbm, ⟨8, _⟩ => ⟨S2048x2048, .f32⟩
  | .hbm, ⟨9, _⟩ => ⟨S1x2048, .f32⟩
  | .hbm, ⟨10, _⟩ => ⟨S8x64x256, .f32⟩
  | .hbm, ⟨11, _⟩ => ⟨S_, .i32⟩
  | .hbm, ⟨12, _⟩ => ⟨S_, .f32⟩
  | .hbm, ⟨13, _⟩ => ⟨S8x128x256, .f32⟩
  | .hbm, ⟨14, _⟩ => ⟨S256x8x128, .f32⟩
  | .hbm, ⟨15, _⟩ => ⟨S256x1024, .f32⟩
  | .hbm, ⟨16, _⟩ => ⟨S256x1024, .bf16⟩
  | .hbm, ⟨17, _⟩ => ⟨S8x64, .f32⟩
  | .hbm, ⟨18, _⟩ => ⟨S_, .i32⟩
  | .hbm, ⟨19, _⟩ => ⟨S_, .f32⟩
  | .hbm, ⟨20, _⟩ => ⟨S8x128, .f32⟩
  | .hbm, ⟨21, _⟩ => ⟨S1x1024, .f32⟩
  | .hbm, ⟨22, _⟩ => ⟨S64x8, .f32⟩
  | .hbm, ⟨23, _⟩ => ⟨S64x8, .bf16⟩
  | .hbm, ⟨24, _⟩ => ⟨S1x8, .f32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S16384, .i32⟩
  | .hbm, ⟨29, _⟩ => ⟨S16384, .i32⟩
  | .hbm, ⟨30, _⟩ => ⟨S_, .i32⟩
  | .hbm, ⟨31, _⟩ => ⟨S16384, .i32⟩
  | .hbm, ⟨32, _⟩ => ⟨S16384, .i32⟩
  | .hbm, ⟨33, _⟩ => ⟨S16384x1, .i32⟩
  | .hbm, ⟨34, _⟩ => ⟨S16384x1, .f32⟩
  | .hbm, ⟨35, _⟩ => ⟨S16384x1x1, .f32⟩
  | .local _ .vmem, ⟨0, _⟩ => ⟨S512x2048, .f32⟩
  | .local _ .vmem, ⟨1, _⟩ => ⟨S512x2048, .f32⟩
  | .local _ .vmem, ⟨2, _⟩ => ⟨S512x1, .i32⟩
  | .local _ .vmem, ⟨3, _⟩ => ⟨S512x1, .i32⟩
  | .local _ .vmem, ⟨4, _⟩ => ⟨S2048x2048, .f32⟩
  | .local _ .vmem, ⟨5, _⟩ => ⟨S1x2048, .f32⟩
  | .local _ .vmem, ⟨6, _⟩ => ⟨S256x1024, .bf16⟩
  | .local _ .vmem, ⟨7, _⟩ => ⟨S1x1024, .f32⟩
  | .local _ .vmem, ⟨8, _⟩ => ⟨S64x8, .bf16⟩
  | .local _ .vmem, ⟨9, _⟩ => ⟨S1x8, .f32⟩
  | .local _ .vmem, ⟨10, _⟩ => ⟨S512x1, .f32⟩
  | .local _ .vmem, ⟨11, _⟩ => ⟨S512x1, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_call1_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_c_2 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x8 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S2048x2048_S2048x2048_1_0 : S2048x2048.Transposes [1, 0] S2048x2048
  shapeCasts_S2048_S1x2048 : S2048.ShapeCasts S1x2048
  shapeCasts_S512x256_S8x64x256 : S512x256.ShapeCasts S8x64x256
  pads_S8x64x256_S8x128x256_000_0640_000 : S8x64x256.Pads (![0, 0, 0] : Fin 3 → Nat) ![0, 64, 0] ![0, 0, 0] S8x128x256
  h_S_ : 0 < S_.numel
  transposes_S8x128x256_S256x8x128_2_0_1 : S8x128x256.Transposes [2, 0, 1] S256x8x128
  shapeCasts_S256x8x128_S256x1024 : S256x8x128.ShapeCasts S256x1024
  bitsLt_bf16_f32 : FTy.bits .bf16 < FTy.bits .f32
  shapeCasts_S512_S8x64 : S512.ShapeCasts S8x64
  pads_S8x64_S8x128_000_0640 : S8x64.Pads (![0, 0] : Fin 2 → Nat) ![0, 64] ![0, 0] S8x128
  shapeCasts_S8x128_S1x1024 : S8x128.ShapeCasts S1x1024
  transposes_S8x64_S64x8_1_0 : S8x64.Transposes [1, 0] S64x8
  shapeCasts_S8_S1x8 : S8.ShapeCasts S1x8
  bcast_S_S16384 : S_.BroadcastsInDim S16384 (![] : Fin 0 → Fin S16384.rank)
  shapeCasts_S16384_S16384x1 : S16384.ShapeCasts S16384x1
  inb_S512x2048_S512x2048_0_0 : ∀ a, (![0, 0] : Fin 2 → Nat) a + S512x2048.size a ≤ S512x2048.size a
  h_S512x2048 : 0 < S512x2048.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x8_d1_w32 : S512x8.Iotas .tc 32 [1]
  broadcasts_S512x1_S512x8 : S512x1.Broadcasts S512x8
  natLt_1_32 : 1 < 32
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S512x8_o0_0_S512x1 : S512x8.Slices ![0, 0] S512x1
  slices_S512x2048_o0_0_S512x256 : S512x2048.Slices ![0, 0] S512x256
  broadcasts_S512x1_S512x256 : S512x1.Broadcasts S512x256
  slices_S512x8_o0_1_S512x1 : S512x8.Slices ![0, 1] S512x1
  slices_S512x2048_o0_256_S512x256 : S512x2048.Slices ![0, 256] S512x256
  slices_S512x8_o0_2_S512x1 : S512x8.Slices ![0, 2] S512x1
  slices_S512x2048_o0_512_S512x256 : S512x2048.Slices ![0, 512] S512x256
  slices_S512x8_o0_3_S512x1 : S512x8.Slices ![0, 3] S512x1
  slices_S512x2048_o0_768_S512x256 : S512x2048.Slices ![0, 768] S512x256
  slices_S512x8_o0_4_S512x1 : S512x8.Slices ![0, 4] S512x1
  slices_S512x2048_o0_1024_S512x256 : S512x2048.Slices ![0, 1024] S512x256
  slices_S512x8_o0_5_S512x1 : S512x8.Slices ![0, 5] S512x1
  slices_S512x2048_o0_1280_S512x256 : S512x2048.Slices ![0, 1280] S512x256
  slices_S512x8_o0_6_S512x1 : S512x8.Slices ![0, 6] S512x1
  slices_S512x2048_o0_1536_S512x256 : S512x2048.Slices ![0, 1536] S512x256
  slices_S512x8_o0_7_S512x1 : S512x8.Slices ![0, 7] S512x1
  slices_S512x2048_o0_1792_S512x256 : S512x2048.Slices ![0, 1792] S512x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  slices_S512x1024_o0_0_S512x128 : S512x1024.Slices ![0, 0] S512x128
  broadcasts_S512x1_S512x128 : S512x1.Broadcasts S512x128
  slices_S512x1024_o0_128_S512x128 : S512x1024.Slices ![0, 128] S512x128
  slices_S512x1024_o0_256_S512x128 : S512x1024.Slices ![0, 256] S512x128
  slices_S512x1024_o0_384_S512x128 : S512x1024.Slices ![0, 384] S512x128
  slices_S512x1024_o0_512_S512x128 : S512x1024.Slices ![0, 512] S512x128
  slices_S512x1024_o0_640_S512x128 : S512x1024.Slices ![0, 640] S512x128
  slices_S512x1024_o0_768_S512x128 : S512x1024.Slices ![0, 768] S512x128
  slices_S512x1024_o0_896_S512x128 : S512x1024.Slices ![0, 896] S512x128
  slices_S512x128_o0_0_S512x64 : S512x128.Slices ![0, 0] S512x64
  inb_S64x8_S64x8_0_0 : ∀ a, (![0, 0] : Fin 2 → Nat) a + S64x8.size a ≤ S64x8.size a
  h_S64x8 : 0 < S64x8.numel
  shapeCasts_S64x8_S64x8 : S64x8.ShapeCasts S64x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S512x8 : S1x8.Broadcasts S512x8
  reduces_S512x8_S512 : S512x8.Reduces [1] S512
  shapeCasts_S512_S512x1 : S512.ShapeCasts S512x1
  shapeCasts_S16384x1_S16384x1x1 : S16384x1.ShapeCasts S16384x1x1
  dot_S512x2048_S2048x2048_S512x2048_1_0_0_1_n_n_wf : DotDims.WF S512x2048 S2048x2048 S512x2048 [1] [0] [0] [1] [] []
  dot_S512x256_S256x1024_S512x1024_1_0_0_1_n_n_wf : DotDims.WF S512x256 S256x1024 S512x1024 [1] [0] [0] [1] [] []
  dot_S512x64_S64x8_S512x8_1_0_0_1_n_n_wf : DotDims.WF S512x64 S64x8 S512x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S16384x1.size a
  hwx0_1 : ∀ i : grid0.Coords, EltTy.bits .i32 = 32 ∨ (Rect.block (s := S16384x1) S512x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .f32 = 32 ∨ (Rect.block (s := S2048x2048) S2048x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S256x1024.size a
  hwx0_4 : ∀ i : grid0.Coords, EltTy.bits .bf16 = 32 ∨ (Rect.block (s := S256x1024) S256x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x8.size a ≤ S64x8.size a
  hwx0_6 : ∀ i : grid0.Coords, EltTy.bits .bf16 = 32 ∨ (Rect.block (s := S64x8) S64x8.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x8.size a ≤ S1x8.size a
  hwx0_7 : ∀ i : grid0.Coords, EltTy.bits .f32 = 32 ∨ (Rect.block (s := S1x8) S1x8.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1.size a ≤ S16384x1.size a
  hwx0_8 : ∀ i : grid0.Coords, EltTy.bits .f32 = 32 ∨ (Rect.block (s := S16384x1) S512x1.size (cc0_transform_8 i) (hinb0_8 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf
def dot_S512x64_S64x8_S512x8_1_0_0_1_n_n : DotDims S512x64 S64x8 S512x8 where
  lhsContracting := [1]
  rhsContracting := [0]
  lhsNonContracting := [0]
  rhsNonContracting := [1]
  lhsBatch := []
  rhsBatch := []
  wf := dot_S512x64_S64x8_S512x8_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S256x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S64x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1x8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S512x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S16384 : Shape := ⟨1, ![16384]⟩
abbrev S2048x2048 : Shape := ⟨2, ![2048, 2048]⟩
abbrev S2048 : Shape := ⟨1, ![2048]⟩
abbrev S512x256 : Shape := ⟨2, ![512, 256]⟩
abbrev S512 : Shape := ⟨1, ![512]⟩
abbrev S8x64 : Shape := ⟨2, ![8, 64]⟩
abbrev S8 : Shape := ⟨1, ![8]⟩
abbrev S1x2048 : Shape := ⟨2, ![1, 2048]⟩
abbrev S16384x8x256 : Shape := ⟨3, ![16384, 8, 256]⟩
abbrev S16384x1x1 : Shape := ⟨3, ![16384, 1, 1]⟩
abbrev S_ : Shape := ⟨0, ![]⟩
abbrev S1 : Shape := ⟨1, ![1]⟩
abbrev S1x1x1 : Shape := ⟨3, ![1, 1, 1]⟩
abbrev S16384x1 : Shape := ⟨2, ![16384, 1]⟩
abbrev S16384x1x256 : Shape := ⟨3, ![16384, 1, 256]⟩
abbrev S16384x256 : Shape := ⟨2, ![16384, 256]⟩
abbrev S256x512 : Shape := ⟨2, ![256, 512]⟩
abbrev S16384x512 : Shape := ⟨2, ![16384, 512]⟩
abbrev S1x512 : Shape := ⟨2, ![1, 512]⟩
abbrev S16384x8x64 : Shape := ⟨3, ![16384, 8, 64]⟩
abbrev S16384x1x64 : Shape := ⟨3, ![16384, 1, 64]⟩
abbrev S16384x64 : Shape := ⟨2, ![16384, 64]⟩
abbrev S64x8 : Shape := ⟨2, ![64, 8]⟩
abbrev S16384x8 : Shape := ⟨2, ![16384, 8]⟩
abbrev S1x8 : Shape := ⟨2, ![1, 8]⟩
abbrev S16384x8x1 : Shape := ⟨3, ![16384, 8, 1]⟩

abbrev nBuf : Space → Nat
  | .hbm => 115
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384, .i32⟩
  | .hbm, ⟨2, _⟩ => ⟨S2048x2048, .f32⟩
  | .hbm, ⟨3, _⟩ => ⟨S2048, .f32⟩
  | .hbm, ⟨4, _⟩ => ⟨S512x256, .f32⟩
  | .hbm, ⟨5, _⟩ => ⟨S512, .f32⟩
  | .hbm, ⟨6, _⟩ => ⟨S8x64, .f32⟩
  | .hbm, ⟨7, _⟩ => ⟨S8, .f32⟩
  | .hbm, ⟨8, _⟩ => ⟨S2048x2048, .f32⟩
  | .hbm, ⟨9, _⟩ => ⟨S16384x2048, .f32⟩
  | .hbm, ⟨10, _⟩ => ⟨S1x2048, .f32⟩
  | .hbm, ⟨11, _⟩ => ⟨S16384x2048, .f32⟩
  | .hbm, ⟨12, _⟩ => ⟨S16384x2048, .f32⟩
  | .hbm, ⟨13, _⟩ => ⟨S16384x8x256, .f32⟩
  | .hbm, ⟨14, _⟩ => ⟨S16384x1x1, .i32⟩
  | .hbm, ⟨15, _⟩ => ⟨S_, .i32⟩
  | .hbm, ⟨16, _⟩ => ⟨S16384x1x1, .i32⟩
  | .hbm, ⟨17, _⟩ => ⟨S16384x1x1, .i1⟩
  | .hbm, ⟨18, _⟩ => ⟨S_, .i32⟩
  | .hbm, ⟨19, _⟩ => ⟨S16384x1x1, .i32⟩
  | .hbm, ⟨20, _⟩ => ⟨S16384x1x1, .i32⟩
  | .hbm, ⟨21, _⟩ => ⟨S16384x1x1, .i32⟩
  | .hbm, ⟨22, _⟩ => ⟨S1, .i32⟩
  | .hbm, ⟨23, _⟩ => ⟨S_, .i32⟩
  | .hbm, ⟨24, _⟩ => ⟨S16384x1x1, .i32⟩
  | .hbm, ⟨25, _⟩ => ⟨S16384x1x1, .i1⟩
  | .hbm, ⟨26, _⟩ => ⟨S1x1x1, .i32⟩
  | .hbm, ⟨27, _⟩ => ⟨S16384x1x1, .i32⟩
  | .hbm, ⟨28, _⟩ => ⟨S16384x1x1, .i1⟩
  | .hbm, ⟨29, _⟩ => ⟨S16384x1x1, .i1⟩
  | .hbm, ⟨30, _⟩ => ⟨S_, .i1⟩
  | .hbm, ⟨31, _⟩ => ⟨S16384x1, .i1⟩
  | .hbm, ⟨32, _⟩ => ⟨S16384x1x256, .f32⟩
  | .hbm, ⟨33, _⟩ => ⟨S16384x1x256, .i1⟩
  | .hbm, ⟨34, _⟩ => ⟨S_, .f32⟩
  | .hbm, ⟨35, _⟩ => ⟨S16384x1x256, .f32⟩
  | .hbm, ⟨36, _⟩ => ⟨S16384x1x256, .f32⟩
  | .hbm, ⟨37, _⟩ => ⟨S16384x256, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S16384x256, .f32⟩
  | .hbm, ⟨42, _⟩ => ⟨S16384x256, .f32⟩
  | .hbm, ⟨43, _⟩ => ⟨S_, .f32⟩
  | .hbm, ⟨44, _⟩ => ⟨S16384x256, .f32⟩
  | .hbm, ⟨45, _⟩ => ⟨S16384x256, .f32⟩
  | .hbm, ⟨46, _⟩ => ⟨S256x512, .f32⟩
  | .hbm, ⟨47, _⟩ => ⟨S16384x512, .f32⟩
  | .hbm, ⟨48, _⟩ => ⟨S1x512, .f32⟩
  | .hbm, ⟨49, _⟩ => ⟨S16384x512, .f32⟩
  | .hbm, ⟨50, _⟩ => ⟨S16384x512, .f32⟩
  | .hbm, ⟨51, _⟩ => ⟨S16384x8x64, .f32⟩
  | .hbm, ⟨52, _⟩ => ⟨S16384x1x1, .i32⟩
  | .hbm, ⟨53, _⟩ => ⟨S_, .i32⟩
  | .hbm, ⟨54, _⟩ => ⟨S16384x1x1, .i32⟩
  | .hbm, ⟨55, _⟩ => ⟨S16384x1x1, .i1⟩
  | .hbm, ⟨56, _⟩ => ⟨S_, .i32⟩
  | .hbm, ⟨57, _⟩ => ⟨S16384x1x1, .i32⟩
  | .hbm, ⟨58, _⟩ => ⟨S16384x1x1, .i32⟩
  | .hbm, ⟨59, _⟩ => ⟨S16384x1x1, .i32⟩
  | .hbm, ⟨60, _⟩ => ⟨S1, .i32⟩
  | .hbm, ⟨61, _⟩ => ⟨S_, .i32⟩
  | .hbm, ⟨62, _⟩ => ⟨S16384x1x1, .i32⟩
  | .hbm, ⟨63, _⟩ => ⟨S16384x1x1, .i1⟩
  | .hbm, ⟨64, _⟩ => ⟨S1x1x1, .i32⟩
  | .hbm, ⟨65, _⟩ => ⟨S16384x1x1, .i32⟩
  | .hbm, ⟨66, _⟩ => ⟨S16384x1x1, .i1⟩
  | .hbm, ⟨67, _⟩ => ⟨S16384x1x1, .i1⟩
  | .hbm, ⟨68, _⟩ => ⟨S_, .i1⟩
  | .hbm, ⟨69, _⟩ => ⟨S16384x1, .i1⟩
  | .hbm, ⟨70, _⟩ => ⟨S16384x1x64, .f32⟩
  | .hbm, ⟨71, _⟩ => ⟨S16384x1x64, .i1⟩
  | .hbm, ⟨72, _⟩ => ⟨S_, .f32⟩
  | .hbm, ⟨73, _⟩ => ⟨S16384x1x64, .f32⟩
  | .hbm, ⟨74, _⟩ => ⟨S16384x1x64, .f32⟩
  | .hbm, ⟨75, _⟩ => ⟨S16384x64, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S16384x64, .f32⟩
  | .hbm, ⟨80, _⟩ => ⟨S16384x64, .f32⟩
  | .hbm, ⟨81, _⟩ => ⟨S_, .f32⟩
  | .hbm, ⟨82, _⟩ => ⟨S16384x64, .f32⟩
  | .hbm, ⟨83, _⟩ => ⟨S16384x64, .f32⟩
  | .hbm, ⟨84, _⟩ => ⟨S64x8, .f32⟩
  | .hbm, ⟨85, _⟩ => ⟨S16384x8, .f32⟩
  | .hbm, ⟨86, _⟩ => ⟨S1x8, .f32⟩
  | .hbm, ⟨87, _⟩ => ⟨S16384x8, .f32⟩
  | .hbm, ⟨88, _⟩ => ⟨S16384x8, .f32⟩
  | .hbm, ⟨89, _⟩ => ⟨S16384x8x1, .f32⟩
  | .hbm, ⟨90, _⟩ => ⟨S16384x1x1, .i32⟩
  | .hbm, ⟨91, _⟩ => ⟨S_, .i32⟩
  | .hbm, ⟨92, _⟩ => ⟨S16384x1x1, .i32⟩
  | .hbm, ⟨93, _⟩ => ⟨S16384x1x1, .i1⟩
  | .hbm, ⟨94, _⟩ => ⟨S_, .i32⟩
  | .hbm, ⟨95, _⟩ => ⟨S16384x1x1, .i32⟩
  | .hbm, ⟨96, _⟩ => ⟨S16384x1x1, .i32⟩
  | .hbm, ⟨97, _⟩ => ⟨S16384x1x1, .i32⟩
  | .hbm, ⟨98, _⟩ => ⟨S1, .i32⟩
  | .hbm, ⟨99, _⟩ => ⟨S_, .i32⟩
  | .hbm, ⟨100, _⟩ => ⟨S16384x1x1, .i32⟩
  | .hbm, ⟨101, _⟩ => ⟨S16384x1x1, .i1⟩
  | .hbm, ⟨102, _⟩ => ⟨S1x1x1, .i32⟩
  | .hbm, ⟨103, _⟩ => ⟨S16384x1x1, .i32⟩
  | .hbm, ⟨104, _⟩ => ⟨S16384x1x1, .i1⟩
  | .hbm, ⟨105, _⟩ => ⟨S16384x1x1, .i1⟩
  | .hbm, ⟨106, _⟩ => ⟨S_, .i1⟩
  | .hbm, ⟨107, _⟩ => ⟨S16384x1, .i1⟩
  | .hbm, ⟨108, _⟩ => ⟨S16384x1x1, .f32⟩
  | .hbm, ⟨109, _⟩ => ⟨S16384x1x1, .i1⟩
  | .hbm, ⟨110, _⟩ => ⟨S_, .f32⟩
  | .hbm, ⟨111, _⟩ => ⟨S16384x1x1, .f32⟩
  | .hbm, ⟨112, _⟩ => ⟨S16384x1x1, .f32⟩
  | .hbm, ⟨113, _⟩ => ⟨S16384x1, .f32⟩
  | .hbm, ⟨114, _⟩ => ⟨S16384x1x1, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_c_2 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_c_3 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_cst : Ref sig .tc := ⟨.hbm, 34, rfl⟩
abbrev main_call0_v14 : Ref sig .tc := ⟨.hbm, 35, rfl⟩
abbrev main_v7 : Ref sig .tc := ⟨.hbm, 36, rfl⟩
abbrev main_v8 : Ref sig .tc := ⟨.hbm, 37, rfl⟩
abbrev main_cst : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_call2_c : Ref sig .tc := ⟨.hbm, 53, rfl⟩
abbrev main_call2_v0 : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_c_1 : Ref sig .tc := ⟨.hbm, 60, rfl⟩
abbrev main_call2_c_2 : Ref sig .tc := ⟨.hbm, 61, rfl⟩
abbrev main_call2_v5 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_call2_c_3 : Ref sig .tc := ⟨.hbm, 68, rfl⟩
abbrev main_call2_v11 : Ref sig .tc := ⟨.hbm, 69, rfl⟩
abbrev main_call2_v12 : Ref sig .tc := ⟨.hbm, 70, rfl⟩
abbrev main_call2_v13 : Ref sig .tc := ⟨.hbm, 71, rfl⟩
abbrev main_call2_cst : Ref sig .tc := ⟨.hbm, 72, rfl⟩
abbrev main_call2_v14 : Ref sig .tc := ⟨.hbm, 73, rfl⟩
abbrev main_v17 : Ref sig .tc := ⟨.hbm, 74, rfl⟩
abbrev main_v18 : Ref sig .tc := ⟨.hbm, 75, rfl⟩
abbrev main_cst_1 : Ref sig .tc := ⟨.hbm, 76, rfl⟩
abbrev main_cst_2 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_v19 : Ref sig .tc := ⟨.hbm, 83, rfl⟩
abbrev main_v20 : Ref sig .tc := ⟨.hbm, 84, rfl⟩
abbrev main_v21 : Ref sig .tc := ⟨.hbm, 85, rfl⟩
abbrev main_v22 : Ref sig .tc := ⟨.hbm, 86, rfl⟩
abbrev main_v23 : Ref sig .tc := ⟨.hbm, 87, rfl⟩
abbrev main_v24 : Ref sig .tc := ⟨.hbm, 88, rfl⟩
abbrev main_v25 : Ref sig .tc := ⟨.hbm, 89, rfl⟩
abbrev main_v26 : Ref sig .tc := ⟨.hbm, 90, rfl⟩
abbrev main_call4_c : Ref sig .tc := ⟨.hbm, 91, rfl⟩
abbrev main_call4_v0 : Ref sig .tc := ⟨.hbm, 92, rfl⟩
abbrev main_call4_v1 : Ref sig .tc := ⟨.hbm, 93, rfl⟩
abbrev main_call4_c_0 : Ref sig .tc := ⟨.hbm, 94, rfl⟩
abbrev main_call4_v2 : Ref sig .tc := ⟨.hbm, 95, rfl⟩
abbrev main_call4_v3 : Ref sig .tc := ⟨.hbm, 96, rfl⟩
abbrev main_call4_v4 : Ref sig .tc := ⟨.hbm, 97, rfl⟩
abbrev main_call4_c_1 : Ref sig .tc := ⟨.hbm, 98, rfl⟩
abbrev main_call4_c_2 : Ref sig .tc := ⟨.hbm, 99, rfl⟩
abbrev main_call4_v5 : Ref sig .tc := ⟨.hbm, 100, rfl⟩
abbrev main_call4_v6 : Ref sig .tc := ⟨.hbm, 101, rfl⟩
abbrev main_call4_v7 : Ref sig .tc := ⟨.hbm, 102, rfl⟩
abbrev main_call4_v8 : Ref sig .tc := ⟨.hbm, 103, rfl⟩
abbrev main_call4_v9 : Ref sig .tc := ⟨.hbm, 104, rfl⟩
abbrev main_call4_v10 : Ref sig .tc := ⟨.hbm, 105, rfl⟩
abbrev main_call4_c_3 : Ref sig .tc := ⟨.hbm, 106, rfl⟩
abbrev main_call4_v11 : Ref sig .tc := ⟨.hbm, 107, rfl⟩
abbrev main_call4_v12 : Ref sig .tc := ⟨.hbm, 108, rfl⟩
abbrev main_call4_v13 : Ref sig .tc := ⟨.hbm, 109, rfl⟩
abbrev main_call4_cst : Ref sig .tc := ⟨.hbm, 110, rfl⟩
abbrev main_call4_v14 : Ref sig .tc := ⟨.hbm, 111, rfl⟩
abbrev main_v27 : Ref sig .tc := ⟨.hbm, 112, rfl⟩
abbrev main_v28 : Ref sig .tc := ⟨.hbm, 113, rfl⟩
abbrev main_v29 : Ref sig .tc := ⟨.hbm, 114, rfl⟩

abbrev nD : Nat := 1
abbrev τ : Topo := Topo.v7x

variable {F : FTy → Type} [FloatOps F]

class Facts₀ : Prop where
  transposes_S2048x2048_S2048x2048_1_0 : S2048x2048.Transposes [1, 0] S2048x2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  shapeCasts_S16384x2048_S16384x8x256 : S16384x2048.ShapeCasts S16384x8x256
  bcast_S16384_S16384x1x1_0 : S16384.BroadcastsInDim S16384x1x1 (![0] : Fin 1 → Fin S16384x1x1.rank)
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  h_S_ : 0 < S_.numel
  bcast_S16384x1_S16384x1x256_0_1 : S16384x1.BroadcastsInDim S16384x1x256 (![0, 1] : Fin 2 → Fin S16384x1x256.rank)
  bcast_S_S16384x1x256 : S_.BroadcastsInDim S16384x1x256 (![] : Fin 0 → Fin S16384x1x256.rank)
  shapeCasts_S16384x1x256_S16384x256 : S16384x1x256.ShapeCasts S16384x256
  bcast_S_S16384x256 : S_.BroadcastsInDim S16384x256 (![] : Fin 0 → Fin S16384x256.rank)
  transposes_S512x256_S256x512_1_0 : S512x256.Transposes [1, 0] S256x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  shapeCasts_S16384x512_S16384x8x64 : S16384x512.ShapeCasts S16384x8x64
  bcast_S16384x1_S16384x1x64_0_1 : S16384x1.BroadcastsInDim S16384x1x64 (![0, 1] : Fin 2 → Fin S16384x1x64.rank)
  bcast_S_S16384x1x64 : S_.BroadcastsInDim S16384x1x64 (![] : Fin 0 → Fin S16384x1x64.rank)
  shapeCasts_S16384x1x64_S16384x64 : S16384x1x64.ShapeCasts S16384x64
  bcast_S_S16384x64 : S_.BroadcastsInDim S16384x64 (![] : Fin 0 → Fin S16384x64.rank)
  transposes_S8x64_S64x8_1_0 : S8x64.Transposes [1, 0] S64x8
  bcast_S8_S1x8_1 : S8.BroadcastsInDim S1x8 (![1] : Fin 1 → Fin S1x8.rank)
  bcast_S1x8_S16384x8_0_1 : S1x8.BroadcastsInDim S16384x8 (![0, 1] : Fin 2 → Fin S16384x8.rank)
  shapeCasts_S16384x8_S16384x8x1 : S16384x8.ShapeCasts S16384x8x1
  bcast_S16384x1_S16384x1x1_0_1 : S16384x1.BroadcastsInDim S16384x1x1 (![0, 1] : Fin 2 → Fin S16384x1x1.rank)
  shapeCasts_S16384x1x1_S16384x1 : S16384x1x1.ShapeCasts S16384x1
  dot_S16384x2048_S2048x2048_S16384x2048_1_0_0_1_n_n_wf : DotDims.WF S16384x2048 S2048x2048 S16384x2048 [1] [0] [0] [1] [] []
  gather_S16384x8x256_S16384x1x1_S16384x1x256_2_1_0_0_1_2_11256_wf : GatherDims.WF S16384x8x256 S16384x1x1 S16384x1x256 [2] [1] [0] [1] [0] 2 ![1, 1, 256]
  dot_S16384x256_S256x512_S16384x512_1_0_0_1_n_n_wf : DotDims.WF S16384x256 S256x512 S16384x512 [1] [0] [0] [1] [] []
  gather_S16384x8x64_S16384x1x1_S16384x1x64_2_1_0_0_1_2_1164_wf : GatherDims.WF S16384x8x64 S16384x1x1 S16384x1x64 [2] [1] [0] [1] [0] 2 ![1, 1, 64]
  dot_S16384x64_S64x8_S16384x8_1_0_0_1_n_n_wf : DotDims.WF S16384x64 S64x8 S16384x8 [1] [0] [0] [1] [] []
  gather_S16384x8x1_S16384x1x1_S16384x1x1_2_1_0_0_1_2_111_wf : GatherDims.WF S16384x8x1 S16384x1x1 S16384x1x1 [2] [1] [0] [1] [0] 2 ![1, 1, 1]

variable [Facts₀]

def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf
def gather_S16384x8x256_S16384x1x1_S16384x1x256_2_1_0_0_1_2_11256 : GatherDims S16384x8x256 S16384x1x1 S16384x1x256 where
  offsetDims := [2]
  collapsedSliceDims := [1]
  operandBatchingDims := [0]
  startIndicesBatchingDims := [0]
  startIndexMap := [1]
  indexVectorDim := 2
  sliceSizes := ![1, 1, 256]
  wf := gather_S16384x8x256_S16384x1x1_S16384x1x256_2_1_0_0_1_2_11256_wf
def dot_S16384x256_S256x512_S16384x512_1_0_0_1_n_n : DotDims S16384x256 S256x512 S16384x512 where
  lhsContracting := [1]
  rhsContracting := [0]
  lhsNonContracting := [0]
  rhsNonContracting := [1]
  lhsBatch := []
  rhsBatch := []
  wf := dot_S16384x256_S256x512_S16384x512_1_0_0_1_n_n_wf
def gather_S16384x8x64_S16384x1x1_S16384x1x64_2_1_0_0_1_2_1164 : GatherDims S16384x8x64 S16384x1x1 S16384x1x64 where
  offsetDims := [2]
  collapsedSliceDims := [1]
  operandBatchingDims := [0]
  startIndicesBatchingDims := [0]
  startIndexMap := [1]
  indexVectorDim := 2
  sliceSizes := ![1, 1, 64]
  wf := gather_S16384x8x64_S16384x1x1_S16384x1x64_2_1_0_0_1_2_1164_wf
def dot_S16384x64_S64x8_S16384x8_1_0_0_1_n_n : DotDims S16384x64 S64x8 S16384x8 where
  lhsContracting := [1]
  rhsContracting := [0]
  lhsNonContracting := [0]
  rhsNonContracting := [1]
  lhsBatch := []
  rhsBatch := []
  wf := dot_S16384x64_S64x8_S16384x8_1_0_0_1_n_n_wf
def gather_S16384x8x1_S16384x1x1_S16384x1x1_2_1_0_0_1_2_111 : GatherDims S16384x8x1 S16384x1x1 S16384x1x1 where
  offsetDims := [2]
  collapsedSliceDims := [1]
  operandBatchingDims := [0]
  startIndicesBatchingDims := [0]
  startIndexMap := [1]
  indexVectorDim := 2
  sliceSizes := ![1, 1, 1]
  wf := gather_S16384x8x1_S16384x1x1_S16384x1x1_2_1_0_0_1_2_111_wf

class Facts : Prop extends Facts₀ where

variable [Facts]
-- ==== Proof.Spec.lean ====
/-
  One sample of the bucketed three-layer network, as a function of its row of inputs, its bucket and the weights.

  Every sample `r` carries a bucket `b ∈ {0,…,7}`.  Each of the three linear layers computes the outputs of ALL
  eight buckets and the sample keeps its own bucket's slice: of the 2048 first-layer outputs the 256 at positions
  `256·b + j`, of the 512 second-layer outputs the 64 at `64·b + j`, of the 8 third-layer outputs the one at `b`.
  The first two slices are clamped to `[0, 1]` before they feed the next layer.  So one sample is
  `out = W3[b,:] · clip(W2[64b + ·, :] · clip(W1[256b + ·, :] · x + b1[256b + ·]) + b2[64b + ·]) + b3[b]`.

  Two spellings of the same function live here.  `moeRow` reads the weights as they are given (`[out, in]`
  matrices, flat bias vectors).  `kRow` reads them in the layout the tiled program is handed: transposed
  (`[in, out]`), the biases as one-row matrices, and the second layer's 64 outputs per bucket spread to 128 columns
  (`128·b + j`, the upper 64 columns of each bucket never read).  `kRow_eq_moeRow` says they agree whenever the
  operands are those re-layouts of one another.

  A selection by a one-hot row — `∑_c a_c · [b = c]`, accumulated left to right from zero — is `a_b` on the
  extended reals with no finiteness needed: `a · 0 = 0`, `a · 1 = a` and `0 + a = a` hold for every extended real.
-/
import Idealize.ShloMosaic.PureOps.Ideal
import Idealize.ShloMosaic.PureOps.Ideal.Laws
import Idealize.ShloMosaic.Lib.ValueIdx

noncomputable section

namespace Cert.BucketMlp

open Idealize.ShloMosaic Idealize.ShloMosaic.ValueIdx

/-- A matrix of extended reals with literal extents. -/
abbrev A2 (a b : Nat) : Type := (⟨2, ![a, b]⟩ : Shape).Idx → EReal
/-- A vector of extended reals with a literal extent. -/
abbrev A1 (a : Nat) : Type := (⟨1, ![a]⟩ : Shape).Idx → EReal

/-- Clamp into `[0, 1]`: first the maximum with zero, then the minimum with one. -/
def clip01 (v : EReal) : EReal :=
  min (Ideal.ofBits .f32 0x3F800000#32) (max (Ideal.ofBits .f32 0x00000000#32) v)

/-- Entry `j` of bucket `b` among `8 × 256` first-layer outputs. -/
def slot256 (b : Fin 8) (j : Fin 256) : Fin 2048 := ⟨b.val * 256 + j.val, by omega⟩
/-- Entry `j` of bucket `b` among `8 × 64` second-layer outputs. -/
def slot64 (b : Fin 8) (j : Fin 64) : Fin 512 := ⟨b.val * 64 + j.val, by omega⟩
/-- The same entry when every bucket's 64 outputs sit in the lower half of 128 columns. -/
def slot128 (b : Fin 8) (j : Fin 64) : Fin 1024 := ⟨b.val * 128 + j.val, by omega⟩

/-! ## The weights as given -/

def lay1 (xr : Fin 2048 → EReal) (b : Fin 8) (W1 : A2 2048 2048) (b1 : A1 2048) (j : Fin 256) : EReal :=
  clip01 ((∑ k : Fin 2048, xr k * W1 (ix2 (slot256 b j) k)) + b1 (ix1 (slot256 b j)))

def lay2 (h : Fin 256 → EReal) (b : Fin 8) (W2 : A2 512 256) (b2 : A1 512) (j : Fin 64) : EReal :=
  clip01 ((∑ k : Fin 256, h k * W2 (ix2 (slot64 b j) k)) + b2 (ix1 (slot64 b j)))

def lay3 (h : Fin 64 → EReal) (b : Fin 8) (W3 : A2 8 64) (b3 : A1 8) : EReal :=
  (∑ k : Fin 64, h k * W3 (ix2 b k)) + b3 (ix1 b)

/-- One sample through the three layers, keeping its bucket's slice after each. -/
def moeRow (xr : Fin 2048 → EReal) (b : Fin 8) (W1 : A2 2048 2048) (b1 : A1 2048) (W2 : A2 512 256) (b2 : A1 512)
    (W3 : A2 8 64) (b3 : A1 8) : EReal :=
  lay3 (lay2 (lay1 xr b W1 b1) b W2 b2) b W3 b3

/-! ## The weights transposed, the biases as rows, the second layer's buckets 128 columns apart -/

def klay1 (xr : Fin 2048 → EReal) (b : Fin 8) (w1t : A2 2048 2048) (b1r : A2 1 2048) (j : Fin 256) : EReal :=
  clip01 ((∑ k : Fin 2048, xr k * w1t (ix2 k (slot256 b j))) + b1r (ix2 (0 : Fin 1) (slot256 b j)))

def klay2 (h : Fin 256 → EReal) (b : Fin 8) (w2t : A2 256 1024) (b2p : A2 1 1024) (j : Fin 64) : EReal :=
  clip01 ((∑ k : Fin 256, h k * w2t (ix2 k (slot128 b j))) + b2p (ix2 (0 : Fin 1) (slot128 b j)))

def klay3 (h : Fin 64 → EReal) (b : Fin 8) (w3t : A2 64 8) (b3r : A2 1 8) : EReal :=
  (∑ k : Fin 64, h k * w3t (ix2 k b)) + b3r (ix2 (0 : Fin 1) b)

def kRow (xr : Fin 2048 → EReal) (b : Fin 8) (w1t : A2 2048 2048) (b1r : A2 1 2048) (w2t : A2 256 1024)
    (b2p : A2 1 1024) (w3t : A2 64 8) (b3r : A2 1 8) : EReal :=
  klay3 (klay2 (klay1 xr b w1t b1r) b w2t b2p) b w3t b3r

/-- The two spellings agree when the second's operands are the first's, re-laid. Only the lower 64 columns of each
    bucket's 128 are constrained: the others are never read. -/
theorem kRow_eq_moeRow (xr : Fin 2048 → EReal) (b : Fin 8)
    (w1t : A2 2048 2048) (b1r : A2 1 2048) (w2t : A2 256 1024) (b2p : A2 1 1024) (w3t : A2 64 8) (b3r : A2 1 8)
    (W1 : A2 2048 2048) (b1 : A1 2048) (W2 : A2 512 256) (b2 : A1 512) (W3 : A2 8 64) (b3 : A1 8)
    (h1 : ∀ (k n : Fin 2048), w1t (ix2 k n) = W1 (ix2 n k))
    (hb1 : ∀ n : Fin 2048, b1r (ix2 (0 : Fin 1) n) = b1 (ix1 n))
    (h2 : ∀ (k : Fin 256) (c : Fin 8) (j : Fin 64), w2t (ix2 k (slot128 c j)) = W2 (ix2 (slot64 c j) k))
    (hb2 : ∀ (c : Fin 8) (j : Fin 64), b2p (ix2 (0 : Fin 1) (slot128 c j)) = b2 (ix1 (slot64 c j)))
    (h3 : ∀ (k : Fin 64) (c : Fin 8), w3t (ix2 k c) = W3 (ix2 c k))
    (hb3 : ∀ c : Fin 8, b3r (ix2 (0 : Fin 1) c) = b3 (ix1 c)) :
    kRow xr b w1t b1r w2t b2p w3t b3r = moeRow xr b W1 b1 W2 b2 W3 b3 := by
  unfold kRow moeRow klay3 lay3 klay2 lay2 klay1 lay1
  simp only [h1, hb1, h2, hb2, h3, hb3]

/-! ## The bucket of an index word, and selection by a one-hot row -/

/-- The bucket an index word names: its signed value, clamped into `[0, 7]`. -/
def bucketOf (v : BitVec 32) : Fin 8 := ⟨min v.toInt.toNat 7, by omega⟩

/-- A word in range is the word of its bucket. -/
theorem eq_ofNat_bucketOf (v : BitVec 32) (hv : 0 ≤ v.toInt ∧ v.toInt < 8) : v = BitVec.ofNat 32 (bucketOf v).val := by
  apply BitVec.eq_of_toNat_eq
  have hc := BitVec.toInt_eq_toNat_cond v
  have hlt := v.isLt
  rw [BitVec.toNat_ofNat]
  show v.toNat = (min v.toInt.toNat 7) % 2 ^ 32
  split at hc <;> omega

/-- The one-hot entry an index word `v` has in column `c`: one where `v` is the word of `c`, zero elsewhere. -/
def oh (v : BitVec 32) (c : Fin 8) : EReal := if v = BitVec.ofNat 32 c.val then 1 else 0

/-- For a word in range the one-hot row is the indicator of its bucket. -/
theorem oh_bucketOf (v : BitVec 32) (hv : 0 ≤ v.toInt ∧ v.toInt < 8) (c : Fin 8) :
    oh v c = if bucketOf v = c then 1 else 0 := by
  unfold oh
  have hv' := eq_ofNat_bucketOf v hv
  by_cases hc : bucketOf v = c
  · rw [if_pos hc, if_pos (by rw [← hc]; exact hv')]
  · rw [if_neg hc, if_neg]
    intro h
    apply hc
    rw [hv'] at h
    have := congrArg BitVec.toNat h
    simp only [BitVec.toNat_ofNat] at this
    have hb := (bucketOf v).isLt
    have hcl := c.isLt
    apply Fin.ext
    omega

/-- The whole result, `[16384, 1, 1]`: sample `r`'s entry is its row through the three layers at the bucket its index word names. -/
def outArr (x : A2 16384 2048) (idx : (⟨1, ![16384]⟩ : Shape).Idx → BitVec 32) (W1 : A2 2048 2048) (b1 : A1 2048)
    (W2 : A2 512 256) (b2 : A1 512) (W3 : A2 8 64) (b3 : A1 8) : (⟨3, ![16384, 1, 1]⟩ : Shape).Idx → EReal :=
  fun i => moeRow (fun k => x (ix2 (⟨(i 0).val, (i 0).isLt⟩ : Fin 16384) k))
    (bucketOf (idx (ix1 (⟨(i 0).val, (i 0).isLt⟩ : Fin 16384)))) W1 b1 W2 b2 W3 b3

/-- The result at the index of sample `r`. -/
theorem outArr_apply (x : A2 16384 2048) (idx : (⟨1, ![16384]⟩ : Shape).Idx → BitVec 32) (W1 : A2 2048 2048) (b1 : A1 2048)
    (W2 : A2 512 256) (b2 : A1 512) (W3 : A2 8 64) (b3 : A1 8) (r : Fin 16384) :
    outArr x idx W1 b1 W2 b2 W3 b3 (ix3 r (0 : Fin 1) (0 : Fin 1))
      = moeRow (fun k => x (ix2 r k)) (bucketOf (idx (ix1 r))) W1 b1 W2 b2 W3 b3 := rfl

/-- Every index of `[16384, 1, 1]` is the index of a sample. -/
theorem idx_eq_sample (i : (⟨3, ![16384, 1, 1]⟩ : Shape).Idx) :
    i = ix3 (⟨(i 0).val, (i 0).isLt⟩ : Fin 16384) (0 : Fin 1) (0 : Fin 1) := by
  funext a
  match a with
  | ⟨0, _⟩ => rfl
  | ⟨1, _⟩ => exact Subsingleton.elim (α := Fin 1) _ _
  | ⟨2, _⟩ => exact Subsingleton.elim (α := Fin 1) _ _

/-- Eight products with an indicator row, accumulated from zero left to right, pick the bucket's term. -/
theorem sel8 (a : Fin 8 → EReal) (b : Fin 8) (d : Fin 8 → EReal) (hd : ∀ c, d c = if b = c then 1 else 0) :
    ((((((((0 + a 0 * d 0) + a 1 * d 1) + a 2 * d 2) + a 3 * d 3) + a 4 * d 4) + a 5 * d 5) + a 6 * d 6) + a 7 * d 7)
      = a b := by
  simp only [hd]
  fin_cases b <;> simp

/-- The same selection written as a sum over the eight columns. -/
theorem sum_sel8 (a : Fin 8 → EReal) (b : Fin 8) (d : Fin 8 → EReal) (hd : ∀ c, d c = if b = c then 1 else 0) :
    ∑ c : Fin 8, a c * d c = a b := by
  simp only [hd, mul_ite, mul_one, mul_zero, Finset.sum_ite_eq, Finset.mem_univ, if_true]

end Cert.BucketMlp

end
-- ==== Proof.LibGatherBatched.lean ====
/-
  `stablehlo.gather` of a rank-3 operand `[R, B, W]` along its middle axis, one start index per leading coordinate,
  read at an index.

  What `jnp.take_along_axis(x, idx[:, None, None], axis=1)` lowers to for `x : [R, B, W]` and `idx : [R]`: operand
  batching axis 0 paired with the start indices' axis 0, the middle axis collapsed and named by the start index map,
  the last axis an offset axis of full width.  Result element `(r, 0, j)` is the operand at `(r, s, j)` where `s` is
  the start index `idx[r, 0, 0]` read as a signed integer and clamped into `[0, B − 1]`.
-/
import Idealize.ShloMosaic.PureOps
import Idealize.ShloMosaic.Lib.ValueIdx

noncomputable section

namespace Idealize.ShloMosaic.GatherBatched

open Idealize.ShloMosaic Idealize.ShloMosaic.ValueIdx

variable {α : Type}

/-- Those dimension numbers for an operand `[R, B, W]`, start indices `[R, 1, 1]` and result `[R, 1, W]`; their
    conditions `wf` are decided on a program's literal shapes. -/
abbrev takeMidDims (R B W : Nat)
    (wf : GatherDims.WF ⟨3, ![R, B, W]⟩ ⟨3, ![R, 1, 1]⟩ ⟨3, ![R, 1, W]⟩ [2] [1] [0] [1] [0] 2 ![1, 1, W]) :
    GatherDims ⟨3, ![R, B, W]⟩ ⟨3, ![R, 1, 1]⟩ ⟨3, ![R, 1, W]⟩ where
  offsetDims := [2]
  collapsedSliceDims := [1]
  operandBatchingDims := [0]
  startIndicesBatchingDims := [0]
  startIndexMap := [1]
  indexVectorDim := 2
  sliceSizes := ![1, 1, W]
  wf := wf

/-- THE GATHER READ AT `(r, 0, j)`: the operand at `(r, s, j)`, `s` the start index `idx[r, 0, 0]` read signed and
    clamped into `[0, B − 1]`. -/
theorem gather_takeMid_apply {R B W w : Nat} (hB : 0 < B)
    (wf : GatherDims.WF ⟨3, ![R, B, W]⟩ ⟨3, ![R, 1, 1]⟩ ⟨3, ![R, 1, W]⟩ [2] [1] [0] [1] [0] 2 ![1, 1, W])
    (x : (⟨3, ![R, B, W]⟩ : Shape).Idx → α) (idx : IVec ⟨3, ![R, 1, 1]⟩ w) (r : Fin R) (j : Fin W) :
    Host.gather (takeMidDims R B W wf) x idx (ix3 r (0 : Fin 1) j)
      = x (ix3 r (⟨min (idx (ix3 r (0 : Fin 1) (0 : Fin 1))).toInt.toNat (B - 1), by omega⟩ : Fin B) j) := by
  unfold Host.gather
  congr 1
  funext a
  refine Fin.ext ?_
  -- On every operand axis the coordinate read is (clamped start) + (batching coordinate) + (offset coordinate);
  -- exactly one of the three is non-zero on each axis.
  match a with
  | ⟨0, _⟩ =>
    -- Axis 0 is the batching axis: no start (it is off the start index map), no offset (it is not a kept axis);
    -- the batching coordinate is the result's coordinate on its first batch axis, `r`.
    show (takeMidDims R B W wf).start (ix3 r (0 : Fin 1) j) idx 0 + (takeMidDims R B W wf).batchCoord (ix3 r (0 : Fin 1) j) 0
        + (takeMidDims R B W wf).offCoord (ix3 r (0 : Fin 1) j) 0 = r.val
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    rfl
  | ⟨1, _⟩ =>
    -- Axis 1 is the collapsed axis the start index map names: no batching coordinate, no offset; the start is the
    -- start index at `(r, 0, 0)` read signed and clamped to `[0, B − 1]` (slice size one).
    show (takeMidDims R B W wf).start (ix3 r (0 : Fin 1) j) idx 1 + (takeMidDims R B W wf).batchCoord (ix3 r (0 : Fin 1) j) 1
        + (takeMidDims R B W wf).offCoord (ix3 r (0 : Fin 1) j) 1 = _
    rw [GatherDims.batchCoord_eq_zero _ _ _ (show ¬ (1 : Fin 3) ∈ ([0] : List (Fin 3)) by decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (takeMidDims R B W wf).startIndexMap from List.mem_singleton.mpr rfl)]
    -- The start-indices index of the one component of the start index: the result's batch coordinates `(r, 0)`,
    -- then `0` on the index vector's axis.
    have hsi : (takeMidDims R B W wf).siIdx (ix3 r (0 : Fin 1) j) ⟨List.idxOf (1 : Fin 3) (takeMidDims R B W wf).startIndexMap,
        List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl
  | ⟨2, _⟩ =>
    -- Axis 2 is the one kept axis: no start (off the start index map), no batching coordinate; the offset is the
    -- result's coordinate on its offset axis, `j`.
    show (takeMidDims R B W wf).start (ix3 r (0 : Fin 1) j) idx 2 + (takeMidDims R B W wf).batchCoord (ix3 r (0 : Fin 1) j) 2
        + (takeMidDims R B W wf).offCoord (ix3 r (0 : Fin 1) j) 2 = j.val
    rw [GatherDims.batchCoord_eq_zero _ _ _ (show ¬ (2 : Fin 3) ∈ ([0] : List (Fin 3)) by decide)]
    unfold GatherDims.start
    rw [dif_neg (show ¬ (2 : Fin 3) ∈ ([1] : List (Fin 3)) by decide)]
    simp only [Nat.add_zero, Nat.zero_add]
    rfl

end Idealize.ShloMosaic.GatherBatched

end
-- ==== Proof.RefTake.lean ====
/-
  The reference's three selections of a sample's bucket, read at an index.

  Each is `take_along_axis` along the bucket axis of a [16384, 8, W] view (W = 256, 64, 1): a negative index has 8 added,
  the result is in bounds when the adjusted index lies in [0, 7] (an `and`-reduction over an axis of extent one), the
  gather reads the bucket's row at the adjusted index clamped into [0, 7], and an out-of-bounds sample is filled with a
  junk value.  For an index word in [0, 8) the adjustment does nothing, the in-bounds bit is set, and the clamp is the
  word's own bucket: the selection reads row `(r, bucket, j)` of the view.
-/
import proofs.«430041_j79096117723303_3_alg».proof.Proof.RefRead
import proofs.«430041_j79096117723303_3_alg».proof.Proof.Spec
import proofs.«430041_j79096117723303_3_alg».proof.Proof.LibGatherBatched
import Idealize.ShloMosaic.Lib.ReduceAll
import Idealize.ShloMosaic.Lib.StableHlo.Predicate

noncomputable section

/-! ## A conjunction of ones is one

The converse of reading a `jnp.all` back: a left fold by `and` from `1` over words that are all `1` stays `1`, so a
one-operand reduce by `and` whose initial value is `1` is `1` at every result index all of whose operand elements are `1`. -/

namespace Idealize.ShloMosaic

namespace IntOp

/-- A left fold by `and` from `1` over `i1` words that are all `1` is `1`. -/
theorem foldl_andi_of_all_one {ι : Type} (f : ι → BitVec 1) :
    ∀ (l : List ι), (∀ n ∈ l, f n = 1#1) → l.foldl (fun r n => andi r (f n)) 1#1 = 1#1
  | [], _ => rfl
  | a :: l, h => by
    have ha : andi 1#1 (f a) = 1#1 := by rw [h a (List.mem_cons_self ..)]; decide
    rw [List.foldl_cons, ha]
    exact foldl_andi_of_all_one f l (fun n hn => h n (List.mem_cons_of_mem _ hn))

end IntOp

namespace Host

variable {s t u : Shape} {axes : List (Fin s.rank)}

/-- A `stablehlo.reduce` by `and` from the initial value `1` is `1` at `j` when every operand element that reduces
    into `j` is `1`. -/
theorem reduce_andi_of_all_one (x : s.Idx → BitVec 1) (init : u.Idx → BitVec 1) (h : s.ReducesTo axes t) (hu : 0 < u.numel)
    (j : t.Idx) (hinit : init (Shape.Idx.first hu) = 1#1) (hx : ∀ i : s.Idx, h.drop i = j → x i = 1#1) :
    Host.reduce IntOp.andi x init h hu j = 1#1 := by
  rw [Host.reduce_eq_foldl, hinit]
  exact IntOp.foldl_andi_of_all_one x _ (fun i hi => hx i (by simpa using (List.mem_filter.1 hi).2))

end Host

end Idealize.ShloMosaic

namespace Cert.ReferenceIdeal.Mlp

open Idealize.ShloMosaic Idealize.ShloMosaic.TcCoe Idealize.ShloMosaic.ValueIdx Cert.BucketMlp Cert.ReferenceIdeal Cert.ReferenceIdeal.Gen Cert.ReferenceIdeal.ReadP

/-! ## An index word in `[0, 8)` under the three signed comparisons -/

/-- A non-negative word is not below zero. -/
theorem slt_zero_of_nonneg (v : BitVec 32) (h : 0 ≤ v.toInt) : IntOp.cmpi .slt v 0#32 = 0#1 := by
  refine eq_zero_of_ne_one (fun h1 => ?_)
  have := IntOp.cmpi_slt.1 h1
  have h0 : (0#32 : BitVec 32).toInt = 0 := by decide
  omega

/-- A non-negative word is at least zero. -/
theorem sge_zero_of_nonneg (v : BitVec 32) (h : 0 ≤ v.toInt) : IntOp.cmpi .sge v 0#32 = 1#1 := by
  refine IntOp.cmpi_sge.2 ?_
  have h0 : (0#32 : BitVec 32).toInt = 0 := by decide
  omega

/-- A word below eight is at most seven. -/
theorem sle_seven_of_lt (v : BitVec 32) (h : v.toInt < 8) : IntOp.cmpi .sle v 7#32 = 1#1 := by
  refine IntOp.cmpi_sle.2 ?_
  have h7 : (7#32 : BitVec 32).toInt = 7 := by decide
  omega

/-! ## The index side of a take, at sample `r`

The three calls normalise and bounds-check the same index column, so everything on the index side is stated once, on the
first call's stages. -/

/-- The index column at sample `r` is the sample's index word. -/
theorem v6_at (x1 : (⟨S16384, .i32⟩ : BufTy).Contents (Elt Ideal)) (r : Fin 16384) :
    val_main_v6 (F := Ideal) x1 (ix3 r (0 : Fin 1) (0 : Fin 1)) = (x1 : S16384.Idx → BitVec 32) (ix1 r) := by
  rw [val_main_v6_apply]
  congr 1
  funext a
  match a with
  | ⟨0, _⟩ => rfl

/-- Normalising a non-negative index (adding the axis length to a negative one) leaves it as it is. -/
theorem call0_v4_at (x1 : (⟨S16384, .i32⟩ : BufTy).Contents (Elt Ideal)) (r : Fin 16384)
    (hv : 0 ≤ ((x1 : S16384.Idx → BitVec 32) (ix1 r)).toInt ∧ ((x1 : S16384.Idx → BitVec 32) (ix1 r)).toInt < 8) :
    val_main_call0_v4 (F := Ideal) x1 (ix3 r (0 : Fin 1) (0 : Fin 1)) = (x1 : S16384.Idx → BitVec 32) (ix1 r) := by
  rw [val_main_call0_v4_apply, val_main_call0_v1_apply, v6_at, val_main_call0_v0_apply, val_main_call0_c_apply,
    slt_zero_of_nonneg _ hv.1, select_zero]

/-- The in-bounds test `0 ≤ idx ∧ idx ≤ 7` holds at sample `r`. -/
theorem call0_v10_at (x1 : (⟨S16384, .i32⟩ : BufTy).Contents (Elt Ideal)) (r : Fin 16384)
    (hv : 0 ≤ ((x1 : S16384.Idx → BitVec 32) (ix1 r)).toInt ∧ ((x1 : S16384.Idx → BitVec 32) (ix1 r)).toInt < 8) :
    val_main_call0_v10 (F := Ideal) x1 (ix3 r (0 : Fin 1) (0 : Fin 1)) = 1#1 := by
  rw [val_main_call0_v10_apply, val_main_call0_v6_apply, val_main_call0_v9_apply, call0_v4_at x1 r hv,
    val_main_call0_v5_apply, val_main_call0_c_2_apply, val_main_call0_v8_apply, val_main_call0_v7_apply,
    val_main_call0_c_1_apply, sge_zero_of_nonneg _ hv.1, sle_seven_of_lt _ hv.2]
  decide

/-- The test reduced by `and` over the size-one last axis is set at `(r, 0)`: the one index that drops to `(r, 0)`
    is `(r, 0, 0)`. -/
theorem call0_v11_at (x1 : (⟨S16384, .i32⟩ : BufTy).Contents (Elt Ideal)) (r : Fin 16384)
    (hv : 0 ≤ ((x1 : S16384.Idx → BitVec 32) (ix1 r)).toInt ∧ ((x1 : S16384.Idx → BitVec 32) (ix1 r)).toInt < 8) :
    val_main_call0_v11 (F := Ideal) x1 (ix2 r (0 : Fin 1)) = 1#1 := by
  unfold val_main_call0_v11
  refine Host.reduce_andi_of_all_one _ _ _ _ _ rfl (fun i hi => ?_)
  have h0 : i 0 = r := Fin.ext (congrArg (fun k : S16384x1.Idx => (k 0).val) hi)
  have hi' : i = ix3 r (0 : Fin 1) (0 : Fin 1) := by
    funext a
    match a with
    | ⟨0, _⟩ => exact h0
    | ⟨1, _⟩ => exact Subsingleton.elim (α := Fin 1) _ _
    | ⟨2, _⟩ => exact Subsingleton.elim (α := Fin 1) _ _
  rw [hi']
  exact call0_v10_at x1 r hv

/-- The second and the third call compute the same normalised index and the same mask as the first: their stages are
    the same operations on the same index column. -/
theorem call2_v4_eq (x1 : (⟨S16384, .i32⟩ : BufTy).Contents (Elt Ideal)) : val_main_call2_v4 (F := Ideal) x1 = val_main_call0_v4 (F := Ideal) x1 := rfl
/-- The second call's mask is the first's. -/
theorem call2_v11_eq (x1 : (⟨S16384, .i32⟩ : BufTy).Contents (Elt Ideal)) : val_main_call2_v11 (F := Ideal) x1 = val_main_call0_v11 (F := Ideal) x1 := rfl
/-- The third call's normalised index is the first's. -/
theorem call4_v4_eq (x1 : (⟨S16384, .i32⟩ : BufTy).Contents (Elt Ideal)) : val_main_call4_v4 (F := Ideal) x1 = val_main_call0_v4 (F := Ideal) x1 := rfl
/-- The third call's mask is the first's. -/
theorem call4_v11_eq (x1 : (⟨S16384, .i32⟩ : BufTy).Contents (Elt Ideal)) : val_main_call4_v11 (F := Ideal) x1 = val_main_call0_v11 (F := Ideal) x1 := rfl

/-! ## A take at any width

With the mask set the select keeps the gather, and the gather reads the operand at the clamped normalised index, which
for a word in `[0, 8)` is the word's bucket. -/

/-- The masked gather of an operand `[16384, 8, W]` read at `(r, 0, j)`, whatever fills the masked-out entries: the
    operand at `(r, b, j)`, `b` the bucket of sample `r`'s index word. -/
theorem take_read {α : Type} {W : Nat}
    (wf : GatherDims.WF ⟨3, ![16384, 8, W]⟩ ⟨3, ![16384, 1, 1]⟩ ⟨3, ![16384, 1, W]⟩ [2] [1] [0] [1] [0] 2 ![1, 1, W])
    (x : (⟨3, ![16384, 8, W]⟩ : Shape).Idx → α) (fill : α) (x1 : (⟨S16384, .i32⟩ : BufTy).Contents (Elt Ideal)) (r : Fin 16384) (j : Fin W)
    (hv : 0 ≤ ((x1 : S16384.Idx → BitVec 32) (ix1 r)).toInt ∧ ((x1 : S16384.Idx → BitVec 32) (ix1 r)).toInt < 8) :
    Scalar.select (val_main_call0_v11 (F := Ideal) x1 (ix2 r (0 : Fin 1)))
        (Host.gather (GatherBatched.takeMidDims 16384 8 W wf) x (val_main_call0_v4 (F := Ideal) x1) (ix3 r (0 : Fin 1) j)) fill
      = x (ix3 r (bucketOf ((x1 : S16384.Idx → BitVec 32) (ix1 r))) j) := by
  rw [call0_v11_at x1 r hv, select_one]
  refine (GatherBatched.gather_takeMid_apply (R := 16384) (B := 8) (W := W) (by decide) wf x _ r j).trans ?_
  refine congrArg (fun b : Fin 8 => x (ix3 r b j)) (Fin.ext ?_)
  show min (val_main_call0_v4 (F := Ideal) x1 (ix3 r (0 : Fin 1) (0 : Fin 1))).toInt.toNat (8 - 1)
    = min ((x1 : S16384.Idx → BitVec 32) (ix1 r)).toInt.toNat 7
  rw [call0_v4_at x1 r hv]

/-! ## The three takes -/

/-- Taking a sample's bucket out of the first layer's `[16384, 8, 256]` view: with the index word in range the
    normalisation of negative indices does nothing, the in-bounds mask is set, and the gather reads the bucket's row. -/
theorem take1 (x0 : (⟨S16384x2048, .f32⟩ : BufTy).Contents (Elt Ideal)) (x1 : (⟨S16384, .i32⟩ : BufTy).Contents (Elt Ideal)) (x2 : (⟨S2048x2048, .f32⟩ : BufTy).Contents (Elt Ideal)) (x3 : (⟨S2048, .f32⟩ : BufTy).Contents (Elt Ideal)) (r : Fin 16384) (j : Fin 256)
    (hv : 0 ≤ ((x1 : S16384.Idx → BitVec 32) (ix1 r)).toInt ∧ ((x1 : S16384.Idx → BitVec 32) (ix1 r)).toInt < 8) :
    val_main_v7 (F := Ideal) x0 x1 x2 x3 (ix3 r (0 : Fin 1) j)
      = val_main_v5 (F := Ideal) x0 x2 x3 (ix3 r (bucketOf ((x1 : S16384.Idx → BitVec 32) (ix1 r))) j) := by
  rw [val_main_v7_apply, val_main_call0_v13_apply]
  have e : idx_main_call0_v13 (ix3 r (0 : Fin 1) j) = ix2 r (0 : Fin 1) := by
    funext a
    match a with
    | ⟨0, _⟩ => rfl
    | ⟨1, _⟩ => rfl
  rw [e]
  exact take_read gather_S16384x8x256_S16384x1x1_S16384x1x256_2_1_0_0_1_2_11256_wf
    (val_main_v5 (F := Ideal) x0 x2 x3) _ x1 r j hv

/-- The same for the second layer's `[16384, 8, 64]` view. -/
theorem take2 (x0 : (⟨S16384x2048, .f32⟩ : BufTy).Contents (Elt Ideal)) (x1 : (⟨S16384, .i32⟩ : BufTy).Contents (Elt Ideal)) (x2 : (⟨S2048x2048, .f32⟩ : BufTy).Contents (Elt Ideal)) (x3 : (⟨S2048, .f32⟩ : BufTy).Contents (Elt Ideal)) (x4 : (⟨S512x256, .f32⟩ : BufTy).Contents (Elt Ideal)) (x5 : (⟨S512, .f32⟩ : BufTy).Contents (Elt Ideal)) (r : Fin 16384) (j : Fin 64)
    (hv : 0 ≤ ((x1 : S16384.Idx → BitVec 32) (ix1 r)).toInt ∧ ((x1 : S16384.Idx → BitVec 32) (ix1 r)).toInt < 8) :
    val_main_v17 (F := Ideal) x0 x1 x2 x3 x4 x5 (ix3 r (0 : Fin 1) j)
      = val_main_v15 (F := Ideal) x0 x1 x2 x3 x4 x5 (ix3 r (bucketOf ((x1 : S16384.Idx → BitVec 32) (ix1 r))) j) := by
  rw [val_main_v17_apply, val_main_call2_v13_apply, call2_v11_eq]
  have e : idx_main_call2_v13 (ix3 r (0 : Fin 1) j) = ix2 r (0 : Fin 1) := by
    funext a
    match a with
    | ⟨0, _⟩ => rfl
    | ⟨1, _⟩ => rfl
  rw [e]
  exact take_read gather_S16384x8x64_S16384x1x1_S16384x1x64_2_1_0_0_1_2_1164_wf
    (val_main_v15 (F := Ideal) x0 x1 x2 x3 x4 x5) _ x1 r j hv

/-- The same for the third layer's `[16384, 8, 1]` view. -/
theorem take3 (x0 : (⟨S16384x2048, .f32⟩ : BufTy).Contents (Elt Ideal)) (x1 : (⟨S16384, .i32⟩ : BufTy).Contents (Elt Ideal)) (x2 : (⟨S2048x2048, .f32⟩ : BufTy).Contents (Elt Ideal)) (x3 : (⟨S2048, .f32⟩ : BufTy).Contents (Elt Ideal)) (x4 : (⟨S512x256, .f32⟩ : BufTy).Contents (Elt Ideal)) (x5 : (⟨S512, .f32⟩ : BufTy).Contents (Elt Ideal)) (x6 : (⟨S8x64, .f32⟩ : BufTy).Contents (Elt Ideal)) (x7 : (⟨S8, .f32⟩ : BufTy).Contents (Elt Ideal)) (r : Fin 16384)
    (hv : 0 ≤ ((x1 : S16384.Idx → BitVec 32) (ix1 r)).toInt ∧ ((x1 : S16384.Idx → BitVec 32) (ix1 r)).toInt < 8) :
    val_main_v27 (F := Ideal) x0 x1 x2 x3 x4 x5 x6 x7 (ix3 r (0 : Fin 1) (0 : Fin 1))
      = val_main_v25 (F := Ideal) x0 x1 x2 x3 x4 x5 x6 x7 (ix3 r (bucketOf ((x1 : S16384.Idx → BitVec 32) (ix1 r))) (0 : Fin 1)) := by
  rw [val_main_v27_apply, val_main_call4_v13_apply, call4_v11_eq]
  have e : idx_main_call4_v13 (ix3 r (0 : Fin 1) (0 : Fin 1)) = ix2 r (0 : Fin 1) := by
    funext a
    match a with
    | ⟨0, _⟩ => rfl
    | ⟨1, _⟩ => rfl
  rw [e]
  exact take_read gather_S16384x8x1_S16384x1x1_S16384x1x1_2_1_0_0_1_2_111_wf
    (val_main_v25 (F := Ideal) x0 x1 x2 x3 x4 x5 x6 x7) _ x1 r (0 : Fin 1) hv

end Cert.ReferenceIdeal.Mlp

end
-- ==== Proof.RefValue.lean ====
/-
  The reference's result, stage by stage, is every sample through the three layers at its bucket.

  Layer by layer: `x · W1ᵀ + b1` viewed as [16384, 8, 256], the bucket's row taken and clamped to [0, 1]; that times
  `W2ᵀ` plus `b2` viewed as [16384, 8, 64], the bucket's row taken and clamped; that times `W3ᵀ` plus `b3` viewed as
  [16384, 8, 1], the bucket's entry taken.  A reshape of [16384, 8·W] to [16384, 8, W] sends (r, b, j) to column W·b + j,
  which is the slot the specification names; a product with a transposed matrix read at an index is the sum of the
  specification with the weight's indices swapped.
-/
import proofs.«430041_j79096117723303_3_alg».proof.Proof.RefTake

noncomputable section

namespace Cert.ReferenceIdeal.Mlp

open Idealize.ShloMosaic Idealize.ShloMosaic.TcCoe Idealize.ShloMosaic.ValueIdx Cert.BucketMlp Cert.ReferenceIdeal Cert.ReferenceIdeal.Gen Cert.ReferenceIdeal.ReadP

variable (x0 : (⟨S16384x2048, .f32⟩ : BufTy).Contents (Elt Ideal)) (x1 : (⟨S16384, .i32⟩ : BufTy).Contents (Elt Ideal)) (x2 : (⟨S2048x2048, .f32⟩ : BufTy).Contents (Elt Ideal)) (x3 : (⟨S2048, .f32⟩ : BufTy).Contents (Elt Ideal)) (x4 : (⟨S512x256, .f32⟩ : BufTy).Contents (Elt Ideal)) (x5 : (⟨S512, .f32⟩ : BufTy).Contents (Elt Ideal)) (x6 : (⟨S8x64, .f32⟩ : BufTy).Contents (Elt Ideal)) (x7 : (⟨S8, .f32⟩ : BufTy).Contents (Elt Ideal))

/-! ## The first layer -/

/-- The first linear layer at sample `r`, output `n`: the row of the input against row `n` of the weights (the
    transposed operand read back at its own index), plus the bias broadcast along the samples. -/
theorem fc1 (r : Fin 16384) (n : Fin 2048) :
    val_main_v4 (F := Ideal) x0 x2 x3 (ix2 r n) = (∑ k : Fin 2048, x0 (ix2 r k) * x2 (ix2 n k)) + x3 (ix1 n) := by
  rw [val_main_v4_apply, val_main_v1_apply, val_main_v3_apply, val_main_v2_apply, Ideal.addf_def]
  have e3 : idx_main_v2 (idx_main_v3 (ix2 r n)) = ix1 n := funext fun a => Fin.ext (by match a with | ⟨0, _⟩ => rfl)
  rw [e3]
  refine congrArg (· + x3 (ix1 n)) (Finset.sum_congr rfl fun k _ => ?_)
  rw [val_main_v0_apply]
  have el : lidx_main_v1 (ix2 r n) k = ix2 r k := funext fun a => Fin.ext (by match a with | ⟨0, _⟩ => rfl | ⟨1, _⟩ => rfl)
  have er : idx_main_v0 (ridx_main_v1 (ix2 r n) k) = ix2 n k := funext fun a => Fin.ext (by match a with | ⟨0, _⟩ => rfl | ⟨1, _⟩ => rfl)
  rw [el, er]

/-- The `[16384, 8, 256]` view of the first layer reads it at column `256·b + j`: row-major, `(8r + b)·256 + j = 2048·r + (256·b + j)`. -/
theorem view1 (r : Fin 16384) (b : Fin 8) (j : Fin 256) :
    val_main_v5 (F := Ideal) x0 x2 x3 (ix3 r b j) = val_main_v4 (F := Ideal) x0 x2 x3 (ix2 r (slot256 b j)) := by
  rw [val_main_v5_apply]
  refine congrArg _ (funext fun a => Fin.ext ?_)
  have hb := b.isLt
  have hj := j.isLt
  match a with
  | ⟨0, _⟩ => show ((r.val * 8 + b.val) * 256 + j.val) / 2048 = r.val; omega
  | ⟨1, _⟩ => show ((r.val * 8 + b.val) * 256 + j.val) % 2048 = b.val * 256 + j.val; omega

/-- The first hidden layer of sample `r`: its bucket's 256 outputs, clamped. -/
theorem hid1 (r : Fin 16384) (j : Fin 256)
    (hv : 0 ≤ ((x1 : S16384.Idx → BitVec 32) (ix1 r)).toInt ∧ ((x1 : S16384.Idx → BitVec 32) (ix1 r)).toInt < 8) :
    val_main_v9 (F := Ideal) x0 x1 x2 x3 (ix2 r j)
      = lay1 (fun k => x0 (ix2 r k)) (bucketOf ((x1 : S16384.Idx → BitVec 32) (ix1 r))) x2 x3 j := by
  rw [val_main_v9_apply, val_main_call1_v4_apply, val_main_call1_v3_apply, val_main_cst_0_apply, val_main_call1_v2_apply,
    val_main_call1_v1_apply, val_main_call1_v0_apply, val_main_cst_apply, val_main_v8_apply]
  have e8 : idx_main_v8 (ix2 r j) = ix3 r (0 : Fin 1) j := funext fun a => Fin.ext (by
    have hj := j.isLt
    match a with
    | ⟨0, _⟩ => show (r.val * 256 + j.val) / 256 = r.val; omega
    | ⟨1, _⟩ => rfl
    | ⟨2, _⟩ => show (r.val * 256 + j.val) % 256 = j.val; omega)
  rw [e8, take1 x0 x1 x2 x3 r j hv, view1, fc1]
  rfl

/-! ## The second layer -/

/-- The second linear layer at sample `r`, output `n`. -/
theorem fc2 (r : Fin 16384) (n : Fin 512) :
    val_main_v14 (F := Ideal) x0 x1 x2 x3 x4 x5 (ix2 r n)
      = (∑ k : Fin 256, val_main_v9 (F := Ideal) x0 x1 x2 x3 (ix2 r k) * x4 (ix2 n k)) + x5 (ix1 n) := by
  rw [val_main_v14_apply, val_main_v11_apply, val_main_v13_apply, val_main_v12_apply, Ideal.addf_def]
  have e3 : idx_main_v12 (idx_main_v13 (ix2 r n)) = ix1 n := funext fun a => Fin.ext (by match a with | ⟨0, _⟩ => rfl)
  rw [e3]
  refine congrArg (· + x5 (ix1 n)) (Finset.sum_congr rfl fun k _ => ?_)
  rw [val_main_v10_apply]
  have el : lidx_main_v11 (ix2 r n) k = ix2 r k := funext fun a => Fin.ext (by match a with | ⟨0, _⟩ => rfl | ⟨1, _⟩ => rfl)
  have er : idx_main_v10 (ridx_main_v11 (ix2 r n) k) = ix2 n k := funext fun a => Fin.ext (by match a with | ⟨0, _⟩ => rfl | ⟨1, _⟩ => rfl)
  rw [el, er]

/-- The `[16384, 8, 64]` view of the second layer reads it at column `64·b + j`. -/
theorem view2 (r : Fin 16384) (b : Fin 8) (j : Fin 64) :
    val_main_v15 (F := Ideal) x0 x1 x2 x3 x4 x5 (ix3 r b j) = val_main_v14 (F := Ideal) x0 x1 x2 x3 x4 x5 (ix2 r (slot64 b j)) := by
  rw [val_main_v15_apply]
  refine congrArg _ (funext fun a => Fin.ext ?_)
  have hb := b.isLt
  have hj := j.isLt
  match a with
  | ⟨0, _⟩ => show ((r.val * 8 + b.val) * 64 + j.val) / 512 = r.val; omega
  | ⟨1, _⟩ => show ((r.val * 8 + b.val) * 64 + j.val) % 512 = b.val * 64 + j.val; omega

/-- The second hidden layer of sample `r`: its bucket's 64 outputs of the first hidden layer's row, clamped. -/
theorem hid2 (r : Fin 16384) (j : Fin 64)
    (hv : 0 ≤ ((x1 : S16384.Idx → BitVec 32) (ix1 r)).toInt ∧ ((x1 : S16384.Idx → BitVec 32) (ix1 r)).toInt < 8) :
    val_main_v19 (F := Ideal) x0 x1 x2 x3 x4 x5 (ix2 r j)
      = lay2 (lay1 (fun k => x0 (ix2 r k)) (bucketOf ((x1 : S16384.Idx → BitVec 32) (ix1 r))) x2 x3)
          (bucketOf ((x1 : S16384.Idx → BitVec 32) (ix1 r))) x4 x5 j := by
  rw [val_main_v19_apply, val_main_call3_v4_apply, val_main_call3_v3_apply, val_main_cst_2_apply, val_main_call3_v2_apply,
    val_main_call3_v1_apply, val_main_call3_v0_apply, val_main_cst_1_apply, val_main_v18_apply]
  have e18 : idx_main_v18 (ix2 r j) = ix3 r (0 : Fin 1) j := funext fun a => Fin.ext (by
    have hj := j.isLt
    match a with
    | ⟨0, _⟩ => show (r.val * 64 + j.val) / 64 = r.val; omega
    | ⟨1, _⟩ => rfl
    | ⟨2, _⟩ => show (r.val * 64 + j.val) % 64 = j.val; omega)
  rw [e18, take2 x0 x1 x2 x3 x4 x5 r j hv, view2, fc2]
  have hs : (∑ k : Fin 256, val_main_v9 (F := Ideal) x0 x1 x2 x3 (ix2 r k) * x4 (ix2 (slot64 (bucketOf ((x1 : S16384.Idx → BitVec 32) (ix1 r))) j) k))
      = ∑ k : Fin 256, lay1 (fun k => x0 (ix2 r k)) (bucketOf ((x1 : S16384.Idx → BitVec 32) (ix1 r))) x2 x3 k * x4 (ix2 (slot64 (bucketOf ((x1 : S16384.Idx → BitVec 32) (ix1 r))) j) k) :=
    Finset.sum_congr rfl fun k _ => by rw [hid1 x0 x1 x2 x3 r k hv]
  rw [hs]
  rfl

/-! ## The third layer and the result -/

/-- The third linear layer at sample `r`, output `n`. -/
theorem fc3 (r : Fin 16384) (n : Fin 8) :
    val_main_v24 (F := Ideal) x0 x1 x2 x3 x4 x5 x6 x7 (ix2 r n)
      = (∑ k : Fin 64, val_main_v19 (F := Ideal) x0 x1 x2 x3 x4 x5 (ix2 r k) * x6 (ix2 n k)) + x7 (ix1 n) := by
  rw [val_main_v24_apply, val_main_v21_apply, val_main_v23_apply, val_main_v22_apply, Ideal.addf_def]
  have e3 : idx_main_v22 (idx_main_v23 (ix2 r n)) = ix1 n := funext fun a => Fin.ext (by match a with | ⟨0, _⟩ => rfl)
  rw [e3]
  refine congrArg (· + x7 (ix1 n)) (Finset.sum_congr rfl fun k _ => ?_)
  rw [val_main_v20_apply]
  have el : lidx_main_v21 (ix2 r n) k = ix2 r k := funext fun a => Fin.ext (by match a with | ⟨0, _⟩ => rfl | ⟨1, _⟩ => rfl)
  have er : idx_main_v20 (ridx_main_v21 (ix2 r n) k) = ix2 n k := funext fun a => Fin.ext (by match a with | ⟨0, _⟩ => rfl | ⟨1, _⟩ => rfl)
  rw [el, er]

/-- The `[16384, 8, 1]` view of the third layer reads it at column `b`. -/
theorem view3 (r : Fin 16384) (b : Fin 8) :
    val_main_v25 (F := Ideal) x0 x1 x2 x3 x4 x5 x6 x7 (ix3 r b (0 : Fin 1)) = val_main_v24 (F := Ideal) x0 x1 x2 x3 x4 x5 x6 x7 (ix2 r b) := by
  rw [val_main_v25_apply]
  refine congrArg _ (funext fun a => Fin.ext ?_)
  have hb := b.isLt
  match a with
  | ⟨0, _⟩ => show ((r.val * 8 + b.val) * 1 + 0) / 8 = r.val; omega
  | ⟨1, _⟩ => show ((r.val * 8 + b.val) * 1 + 0) % 8 = b.val; omega

/-- Sample `r`'s entry of the result: its row through the three layers at its bucket. -/
theorem out_row (r : Fin 16384)
    (hv : 0 ≤ ((x1 : S16384.Idx → BitVec 32) (ix1 r)).toInt ∧ ((x1 : S16384.Idx → BitVec 32) (ix1 r)).toInt < 8) :
    val_main_v29 (F := Ideal) x0 x1 x2 x3 x4 x5 x6 x7 (ix3 r (0 : Fin 1) (0 : Fin 1))
      = moeRow (fun k => x0 (ix2 r k)) (bucketOf ((x1 : S16384.Idx → BitVec 32) (ix1 r))) x2 x3 x4 x5 x6 x7 := by
  rw [val_main_v29_apply, val_main_v28_apply]
  have e : idx_main_v28 (idx_main_v29 (ix3 r (0 : Fin 1) (0 : Fin 1))) = ix3 r (0 : Fin 1) (0 : Fin 1) := funext fun a => Fin.ext (by
    match a with
    | ⟨0, _⟩ => show (r.val * 1 + 0) / 1 = r.val; omega
    | ⟨1, _⟩ => rfl
    | ⟨2, _⟩ => rfl)
  rw [e, take3 x0 x1 x2 x3 x4 x5 x6 x7 r hv, view3, fc3]
  have hs : (∑ k : Fin 64, val_main_v19 (F := Ideal) x0 x1 x2 x3 x4 x5 (ix2 r k) * x6 (ix2 (bucketOf ((x1 : S16384.Idx → BitVec 32) (ix1 r))) k))
      = ∑ k : Fin 64, lay2 (lay1 (fun k => x0 (ix2 r k)) (bucketOf ((x1 : S16384.Idx → BitVec 32) (ix1 r))) x2 x3)
          (bucketOf ((x1 : S16384.Idx → BitVec 32) (ix1 r))) x4 x5 k * x6 (ix2 (bucketOf ((x1 : S16384.Idx → BitVec 32) (ix1 r))) k) :=
    Finset.sum_congr rfl fun k _ => by rw [hid2 x0 x1 x2 x3 x4 x5 r k hv]
  rw [hs]
  rfl

/-- The reference's result, stage by stage, is every sample through the three layers at its bucket — when every
    index word is in range. -/
theorem ref_value (x0 : (⟨S16384x2048, .f32⟩ : BufTy).Contents (Elt Ideal)) (x1 : (⟨S16384, .i32⟩ : BufTy).Contents (Elt Ideal)) (x2 : (⟨S2048x2048, .f32⟩ : BufTy).Contents (Elt Ideal)) (x3 : (⟨S2048, .f32⟩ : BufTy).Contents (Elt Ideal)) (x4 : (⟨S512x256, .f32⟩ : BufTy).Contents (Elt Ideal)) (x5 : (⟨S512, .f32⟩ : BufTy).Contents (Elt Ideal)) (x6 : (⟨S8x64, .f32⟩ : BufTy).Contents (Elt Ideal)) (x7 : (⟨S8, .f32⟩ : BufTy).Contents (Elt Ideal))
    (hidx : ∀ r : Fin 16384, 0 ≤ ((x1 : S16384.Idx → BitVec 32) (ix1 r)).toInt ∧ ((x1 : S16384.Idx → BitVec 32) (ix1 r)).toInt < 8) :
    val_main_v29 (F := Ideal) x0 x1 x2 x3 x4 x5 x6 x7 = outArr x0 x1 x2 x3 x4 x5 x6 x7 := by
  funext i
  rw [idx_eq_sample i, outArr_apply]
  exact out_row x0 x1 x2 x3 x4 x5 x6 x7 _ (hidx _)

end Cert.ReferenceIdeal.Mlp

end
-- ==== Proof.LibColumn.lean ====
/-
  The keepdims column forms of a vector: a length-a vector viewed as an a x 1 column, and an a x 1 column
  repeated across b columns, each read at an index. (The row forms, 1 x b, are in the library.)
-/
import Idealize.ShloMosaic.Lib.Pipeline.Value
import Idealize.ShloMosaic.Lib.ValueIdx

namespace Cert.LibColumn

open Idealize.ShloMosaic Idealize.ShloMosaic.ValueIdx

variable {α : Type}

/-- A length-a vector cast to an a x 1 column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An a x 1 column broadcast to a x b reads, at (p, c), the column's entry in row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibColumn
-- ==== Proof.Layer1.lean ====
/-
  The first linear layer of the tiled program and the one-hot row, read at an index.

  The index column of a block is compared with the lane numbers 0..7: row `p` of the resulting [512, 8] matrix is the
  one-hot row of sample `p`'s index word (an integer 0 or 1 converted to a float is the real 0 or 1).  The first layer
  for ALL buckets is the block of samples times the transposed weights, plus the bias row: entry (p, n) is
  `∑ k, x[p, k] · w[k, n] + b[n]`.  The program then starts selecting the sample's bucket: the 256-column slices of buckets
  0..5, each times its one-hot column spread along the row, added up from zero; the slice of bucket 6 and the one-hot
  column 6 are handed on as they are.
-/
import proofs.«430041_j79096117723303_3_alg».proof.Proof.Gen.KernelIdeal.Skeleton
import proofs.«430041_j79096117723303_3_alg».proof.Proof.Spec
import proofs.«430041_j79096117723303_3_alg».proof.Proof.LibColumn
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Mlp

open Idealize.ShloMosaic Idealize.ShloMosaic.TcCoe Idealize.ShloMosaic.ValueIdx Cert.BucketMlp Cert.KernelIdeal Cert.KernelIdeal.Gen

/-! ## Words: the comparison bit and its value as an extended real -/

/-- The signed value of a one-bit word widened to 32 bits, as an extended real: one for the set bit, zero for the clear one. -/
theorem onehot_bit_value (b : BitVec 1) :
    (FloatOps.sitofp (F := Ideal) .f32 (b.setWidth 32) : EReal) = if b = 1#1 then 1 else 0 := by
  rcases BitVec.eq_zero_or_eq_one b with h | h <;> subst h
  · show (((BitVec.setWidth 32 (0#1)).toInt : ℝ) : EReal) = _
    simp
  · show (((BitVec.setWidth 32 (1#1)).toInt : ℝ) : EReal) = _
    simp

/-- The equality comparison of two words gives the set bit exactly when the words are equal. -/
theorem onehot_cmp_iff (a b : BitVec 32) : IntOp.cmpi .eq a b = 1#1 ↔ a = b := by
  show BitVec.ofBool (a == b) = 1#1 ↔ a = b
  by_cases h : a = b
  · subst h; simp
  · have hf : (a == b) = false := by simpa using h
    rw [hf]; simp [h]

/-- The one-hot row of a sample: column `c` compares the sample's index word with the word of `c`. -/
theorem onehot_apply (x1 : Vec Ideal S512x1 .i32) (p : Fin 512) (c : Fin 8) :
    k0_pay2 (F := Ideal) x1 (ix2 p c) = oh (x1 (ix2 p (0 : Fin 1))) c := by
  -- the index column spread over eight columns reads the sample's word; the shape cast to the same shape is the identity
  have hb : broadcastTo S512x8 (shapeCast S512x1 x1 shapeCasts_S512x1_S512x1) broadcasts_S512x1_S512x8 (ix2 p c)
      = x1 (ix2 p (0 : Fin 1)) := by
    refine (Cert.LibColumn.broadcastTo_a1_ab_apply _ _ p c).trans ?_
    rw [shapeCast_self]
  -- the count along axis 1 reads the word of the column
  have hi : iota .tc S512x8 32 [1] iota_S512x8_d1_w32 (ix2 p c) = BitVec.ofNat 32 c.val :=
    iota_single_apply .tc S512x8 32 1 iota_S512x8_d1_w32 (ix2 p c)
  unfold k0_pay2
  show FloatOps.sitofp (F := Ideal) .f32
      ((IntOp.cmpi .eq (broadcastTo S512x8 (shapeCast S512x1 x1 shapeCasts_S512x1_S512x1) broadcasts_S512x1_S512x8 (ix2 p c))
        (iota .tc S512x8 32 [1] iota_S512x8_d1_w32 (ix2 p c))).setWidth 32) = _
  rw [hb, hi, onehot_bit_value]
  unfold oh
  exact if_congr (onehot_cmp_iff _ _) rfl rfl

/-! ## The first layer's product: operand indices axis by axis, then the sum over the shared axis -/

/-- The left operand's index keeps the output's row. -/
theorem lhs_fc1_0 (i : S512x2048.Idx) (q : dot_S512x2048_S2048x2048_S512x2048_1_0_0_1_n_n.contr.Idx) :
    (dot_S512x2048_S2048x2048_S512x2048_1_0_0_1_n_n.lhsIdx i q 0).val = (i 0).val := by
  unfold DotDims.lhsIdx
  rw [dif_neg (show ¬(0 : Fin S512x2048.rank) ∈ dot_S512x2048_S2048x2048_S512x2048_1_0_0_1_n_n.lhsBatch by decide), dif_pos (show (0 : Fin S512x2048.rank) ∈ dot_S512x2048_S2048x2048_S512x2048_1_0_0_1_n_n.lhsNonContracting by decide)]
  rfl
/-- The left operand's column is the contraction coordinate. -/
theorem lhs_fc1_1 (i : S512x2048.Idx) (q : dot_S512x2048_S2048x2048_S512x2048_1_0_0_1_n_n.contr.Idx) :
    (dot_S512x2048_S2048x2048_S512x2048_1_0_0_1_n_n.lhsIdx i q 1).val = (q ⟨0, by decide⟩).val :=
  dot_S512x2048_S2048x2048_S512x2048_1_0_0_1_n_n.lhsIdx_val_of_single rfl i q
/-- The right operand's row is the contraction coordinate. -/
theorem rhs_fc1_0 (i : S512x2048.Idx) (q : dot_S512x2048_S2048x2048_S512x2048_1_0_0_1_n_n.contr.Idx) :
    (dot_S512x2048_S2048x2048_S512x2048_1_0_0_1_n_n.rhsIdx i q 0).val = (q ⟨0, by decide⟩).val :=
  dot_S512x2048_S2048x2048_S512x2048_1_0_0_1_n_n.rhsIdx_val_of_single rfl i q
/-- The right operand's index keeps the output's column. -/
theorem rhs_fc1_1 (i : S512x2048.Idx) (q : dot_S512x2048_S2048x2048_S512x2048_1_0_0_1_n_n.contr.Idx) :
    (dot_S512x2048_S2048x2048_S512x2048_1_0_0_1_n_n.rhsIdx i q 1).val = (i 1).val := by
  unfold DotDims.rhsIdx
  rw [dif_neg (show ¬(1 : Fin S2048x2048.rank) ∈ dot_S512x2048_S2048x2048_S512x2048_1_0_0_1_n_n.rhsBatch by decide), dif_pos (show (1 : Fin S2048x2048.rank) ∈ dot_S512x2048_S2048x2048_S512x2048_1_0_0_1_n_n.rhsNonContracting by decide)]
  rfl

/-- The product into the zero accumulator, read at (p, n): the sum over the shared axis of row p of the left operand times
    column n of the right. The contraction index is re-indexed by its one coordinate. -/
theorem fc1_matmul_apply (x0 : FVec Ideal S512x2048 .f32) (y : FVec Ideal S2048x2048 .f32) (p : Fin 512) (n : Fin 2048) :
    FloatOps.matmul dot_S512x2048_S2048x2048_S512x2048_1_0_0_1_n_n (some .fp32) x0 y (constant (F := Ideal) S512x2048 .f32 0x00000000#32) (ix2 p n)
      = ∑ k : Fin 2048, x0 (ix2 p k) * y (ix2 k n) := by
  rw [Ideal.matmul_constant_zero_apply, ← Equiv.sum_comp (ValueIdx.contrEquiv1 dot_S512x2048_S2048x2048_S512x2048_1_0_0_1_n_n 2048 rfl rfl).symm]
  refine Finset.sum_congr rfl fun k _ => ?_
  have hk := ValueIdx.contrEquiv1_symm_val dot_S512x2048_S2048x2048_S512x2048_1_0_0_1_n_n 2048 rfl rfl k
  have el : dot_S512x2048_S2048x2048_S512x2048_1_0_0_1_n_n.lhsIdx (ix2 p n) ((ValueIdx.contrEquiv1 dot_S512x2048_S2048x2048_S512x2048_1_0_0_1_n_n 2048 rfl rfl).symm k) = ix2 p k := funext fun a => Fin.ext (by
    match a with
    | ⟨0, _⟩ => exact lhs_fc1_0 _ _
    | ⟨1, _⟩ => exact (lhs_fc1_1 _ _).trans hk)
  have er : dot_S512x2048_S2048x2048_S512x2048_1_0_0_1_n_n.rhsIdx (ix2 p n) ((ValueIdx.contrEquiv1 dot_S512x2048_S2048x2048_S512x2048_1_0_0_1_n_n 2048 rfl rfl).symm k) = ix2 k n := funext fun a => Fin.ext (by
    match a with
    | ⟨0, _⟩ => exact (rhs_fc1_0 _ _).trans hk
    | ⟨1, _⟩ => exact rhs_fc1_1 _ _)
  rw [el, er]

/-- The first layer for all eight buckets: a row of the block times a column of the transposed weights, plus the bias row. -/
theorem fc1_apply (x0 : Vec Ideal S512x2048 .f32) (x2 : Vec Ideal S2048x2048 .f32) (x3 : Vec Ideal S1x2048 .f32)
    (p : Fin 512) (n : Fin 2048) :
    k0_pay3 (F := Ideal) x0 x2 x3 (ix2 p n) = (∑ k : Fin 2048, x0 (ix2 p k) * x2 (ix2 k n)) + x3 (ix2 (0 : Fin 1) n) := by
  -- the bias row repeated down the rows reads the row at the column; the shape cast to the same shape is the identity
  have hbias : broadcastTo S512x2048 (shapeCast S1x2048 x3 shapeCasts_S1x2048_S1x2048) broadcasts_S1x2048_S512x2048 (ix2 p n)
      = x3 (ix2 (0 : Fin 1) n) := by
    refine (broadcastTo_1b_ab_apply _ _ p n).trans ?_
    rw [shapeCast_self]
  unfold k0_pay3
  show FloatOps.matmul dot_S512x2048_S2048x2048_S512x2048_1_0_0_1_n_n (some .fp32) x0 (shapeCast S2048x2048 x2 shapeCasts_S2048x2048_S2048x2048)
        (constant (F := Ideal) S512x2048 .f32 0x00000000#32) (ix2 p n)
      + broadcastTo S512x2048 (shapeCast S1x2048 x3 shapeCasts_S1x2048_S1x2048) broadcasts_S1x2048_S512x2048 (ix2 p n) = _
  rw [hbias, fc1_matmul_apply, shapeCast_self]

/-! ## A bucket's slice of the first layer, and a one-hot column spread along the row -/

/-- A 256-column slice of the first layer starting at column 256·c reads, at (p, j), the layer at (p, 256·c + j). -/
theorem fc1_slice256_apply (X : FVec Ideal S512x2048 .f32) (o : Nat) (h : S512x2048.Slices ![0, o] S512x256) (c : Fin 8)
    (ho : o = c.val * 256) (p : Fin 512) (j : Fin 256) :
    extractStridedSlice S512x256 ![0, o] X h (ix2 p j) = X (ix2 p (slot256 c j)) :=
  slice2_axis1_apply o X h p j (slot256 c j) (by show c.val * 256 + j.val = o + j.val; omega)

/-- Column c of the one-hot matrix, spread along a 256-wide row, reads the matrix at (p, c) everywhere in row p. -/
theorem onehot_column256_apply (Y : FVec Ideal S512x8 .f32) (o : Nat) (h : S512x8.Slices ![0, o] S512x1) (c : Fin 8)
    (ho : o = c.val) (p : Fin 512) (j : Fin 256) :
    broadcastTo S512x256 (extractStridedSlice S512x1 ![0, o] Y h) broadcasts_S512x1_S512x256 (ix2 p j) = Y (ix2 p c) := by
  refine (Cert.LibColumn.broadcastTo_a1_ab_apply _ _ p j).trans ?_
  exact slice2_axis1_apply o Y h p (0 : Fin 1) c (by show c.val = o + 0; omega)

/-- The first six buckets' slices, each times its one-hot column, accumulated from zero. -/
theorem acc6_apply (x0 : Vec Ideal S512x2048 .f32) (x1 : Vec Ideal S512x1 .i32) (x2 : Vec Ideal S2048x2048 .f32)
    (x3 : Vec Ideal S1x2048 .f32) (p : Fin 512) (j : Fin 256) :
    k0_pay4 (F := Ideal) x0 x1 x2 x3 (ix2 p j)
      = ((((((0 + k0_pay3 (F := Ideal) x0 x2 x3 (ix2 p (slot256 0 j)) * k0_pay2 (F := Ideal) x1 (ix2 p (0 : Fin 8)))
          + k0_pay3 (F := Ideal) x0 x2 x3 (ix2 p (slot256 1 j)) * k0_pay2 (F := Ideal) x1 (ix2 p (1 : Fin 8)))
          + k0_pay3 (F := Ideal) x0 x2 x3 (ix2 p (slot256 2 j)) * k0_pay2 (F := Ideal) x1 (ix2 p (2 : Fin 8)))
          + k0_pay3 (F := Ideal) x0 x2 x3 (ix2 p (slot256 3 j)) * k0_pay2 (F := Ideal) x1 (ix2 p (3 : Fin 8)))
          + k0_pay3 (F := Ideal) x0 x2 x3 (ix2 p (slot256 4 j)) * k0_pay2 (F := Ideal) x1 (ix2 p (4 : Fin 8)))
          + k0_pay3 (F := Ideal) x0 x2 x3 (ix2 p (slot256 5 j)) * k0_pay2 (F := Ideal) x1 (ix2 p (5 : Fin 8))) := by
  unfold k0_pay4
  -- sums and products are entrywise; the scalar spread over the block reads the scalar
  simp only [addf_apply, mulf_apply, broadcast_apply]
  -- slice c starts at column 256·c; one-hot column c starts at column c
  rw [fc1_slice256_apply _ 0 _ 0 (by decide), fc1_slice256_apply _ 256 _ 1 (by decide), fc1_slice256_apply _ 512 _ 2 (by decide),
    fc1_slice256_apply _ 768 _ 3 (by decide), fc1_slice256_apply _ 1024 _ 4 (by decide), fc1_slice256_apply _ 1280 _ 5 (by decide),
    onehot_column256_apply _ 0 _ 0 (by decide), onehot_column256_apply _ 1 _ 1 (by decide), onehot_column256_apply _ 2 _ 2 (by decide),
    onehot_column256_apply _ 3 _ 3 (by decide), onehot_column256_apply _ 4 _ 4 (by decide), onehot_column256_apply _ 5 _ 5 (by decide)]
  -- the zero word is the extended real zero
  have hz : (FloatOps.ofBits (F := Ideal) .f32 0x00000000#32 : EReal) = 0 := Ideal.ofBits_zero_f32
  rw [hz]

/-- The seventh bucket's slice of the first layer. -/
theorem slice6_apply (x0 : Vec Ideal S512x2048 .f32) (x2 : Vec Ideal S2048x2048 .f32) (x3 : Vec Ideal S1x2048 .f32)
    (p : Fin 512) (j : Fin 256) :
    k0_pay5 (F := Ideal) x0 x2 x3 (ix2 p j) = k0_pay3 (F := Ideal) x0 x2 x3 (ix2 p (slot256 6 j)) := by
  unfold k0_pay5
  exact fc1_slice256_apply _ 1536 _ 6 (by decide) p j

/-- The seventh one-hot column, spread along the row. -/
theorem col6_apply (x1 : Vec Ideal S512x1 .i32) (p : Fin 512) (j : Fin 256) :
    k0_pay6 (F := Ideal) x1 (ix2 p j) = k0_pay2 (F := Ideal) x1 (ix2 p (6 : Fin 8)) := by
  unfold k0_pay6
  exact onehot_column256_apply _ 6 _ 6 (by decide) p j

end Cert.KernelIdeal.Mlp

end
-- ==== Proof.Layer2.lean ====
/-
  The second linear layer of the tiled program, read at an index.

  Its input is the first layer's selected slice: eight products "bucket c's 256 columns times the one-hot column c",
  accumulated left to right from zero (the first six arrive already accumulated, the seventh and eighth are added here),
  clamped to [0, 1].  Its output at (p, n) is row p of that clamped matrix times column n of the second weights,
  plus the bias row at n.  With the one-hot row of a sample whose index word is in range, the accumulation keeps exactly
  the term of the sample's bucket, which is the first layer of the specification.
-/
import proofs.«430041_j79096117723303_3_alg».proof.Proof.Layer1
import proofs.«430041_j79096117723303_3_alg».proof.Proof.LibColumn

noncomputable section

namespace Cert.KernelIdeal.Mlp

open Idealize.ShloMosaic Idealize.ShloMosaic.TcCoe Idealize.ShloMosaic.ValueIdx Cert.BucketMlp Cert.KernelIdeal Cert.KernelIdeal.Gen

/-! ## The two layout reads of the eighth term -/

/-- The eighth bucket's slice of the first layer's 2048 columns (columns 1792 + k = 7 * 256 + k), read at (p, k). -/
theorem slice7_apply (v14 : FVec Ideal S512x2048 .f32) (p : Fin 512) (k : Fin 256) :
    extractStridedSlice S512x256 ![0, 1792] v14 slices_S512x2048_o0_1792_S512x256 (ix2 p k) = v14 (ix2 p (slot256 7 k)) :=
  slice2_axis1_apply 1792 v14 slices_S512x2048_o0_1792_S512x256 p k (slot256 7 k) (by
    show (7 : Fin 8).val * 256 + k.val = 1792 + k.val
    rfl)

/-- The eighth one-hot column, cut out as a 512 x 1 column and spread along a row of 256: every entry of row p is the
    one-hot row of p at column 7. -/
theorem col7_apply (v7 : FVec Ideal S512x8 .f32) (p : Fin 512) (k : Fin 256) :
    broadcastTo S512x256 (extractStridedSlice S512x1 ![0, 7] v7 slices_S512x8_o0_7_S512x1) broadcasts_S512x1_S512x256 (ix2 p k)
      = v7 (ix2 p (7 : Fin 8)) :=
  (Cert.LibColumn.broadcastTo_a1_ab_apply _ broadcasts_S512x1_S512x256 p k).trans
    (slice2_axis1_apply 7 v7 slices_S512x8_o0_7_S512x1 p (0 : Fin 1) (7 : Fin 8) rfl)

/-! ## The contraction of the second layer: the operands' indices, axis by axis

  The product contracts axis 1 of the left operand with axis 0 of the right; the other axis of each operand is the
  output's. -/

/-- The left operand's row is the output's row. -/
theorem lhs_fc2_0 (i : S512x1024.Idx) (q : dot_S512x256_S256x1024_S512x1024_1_0_0_1_n_n.contr.Idx) :
    (dot_S512x256_S256x1024_S512x1024_1_0_0_1_n_n.lhsIdx i q 0).val = (i 0).val := by
  unfold DotDims.lhsIdx
  rw [dif_neg (show ¬(0 : Fin S512x256.rank) ∈ dot_S512x256_S256x1024_S512x1024_1_0_0_1_n_n.lhsBatch by decide), dif_pos (show (0 : Fin S512x256.rank) ∈ dot_S512x256_S256x1024_S512x1024_1_0_0_1_n_n.lhsNonContracting by decide)]
  rfl
/-- The left operand's column is the contraction index. -/
theorem lhs_fc2_1 (i : S512x1024.Idx) (q : dot_S512x256_S256x1024_S512x1024_1_0_0_1_n_n.contr.Idx) :
    (dot_S512x256_S256x1024_S512x1024_1_0_0_1_n_n.lhsIdx i q 1).val = (q ⟨0, by decide⟩).val :=
  dot_S512x256_S256x1024_S512x1024_1_0_0_1_n_n.lhsIdx_val_of_single rfl i q
/-- The right operand's row is the contraction index. -/
theorem rhs_fc2_0 (i : S512x1024.Idx) (q : dot_S512x256_S256x1024_S512x1024_1_0_0_1_n_n.contr.Idx) :
    (dot_S512x256_S256x1024_S512x1024_1_0_0_1_n_n.rhsIdx i q 0).val = (q ⟨0, by decide⟩).val :=
  dot_S512x256_S256x1024_S512x1024_1_0_0_1_n_n.rhsIdx_val_of_single rfl i q
/-- The right operand's column is the output's column. -/
theorem rhs_fc2_1 (i : S512x1024.Idx) (q : dot_S512x256_S256x1024_S512x1024_1_0_0_1_n_n.contr.Idx) :
    (dot_S512x256_S256x1024_S512x1024_1_0_0_1_n_n.rhsIdx i q 1).val = (i 1).val := by
  unfold DotDims.rhsIdx
  rw [dif_neg (show ¬(1 : Fin S256x1024.rank) ∈ dot_S512x256_S256x1024_S512x1024_1_0_0_1_n_n.rhsBatch by decide), dif_pos (show (1 : Fin S256x1024.rank) ∈ dot_S512x256_S256x1024_S512x1024_1_0_0_1_n_n.rhsNonContracting by decide)]
  rfl

/-- A [512, 256] by [256, 1024] product into the zero accumulator, read at (p, n): row p of the left operand times
    column n of the right, the one-axis contraction index re-indexed by its coordinate in `Fin 256`. -/
theorem matmul_fc2_apply (a : FVec Ideal S512x256 .bf16) (w : FVec Ideal S256x1024 .bf16) (p : Fin 512) (n : Fin 1024) :
    matmul dot_S512x256_S256x1024_S512x1024_1_0_0_1_n_n none a w (constant (F := Ideal) S512x1024 .f32 0x00000000#32) (ix2 p n)
      = ∑ k : Fin 256, a (ix2 p k) * w (ix2 k n) := by
  refine (Ideal.matmul_constant_zero_apply dot_S512x256_S256x1024_S512x1024_1_0_0_1_n_n none a w (ix2 p n)).trans ?_
  rw [← Equiv.sum_comp (ValueIdx.contrEquiv1 dot_S512x256_S256x1024_S512x1024_1_0_0_1_n_n 256 rfl rfl).symm]
  refine Finset.sum_congr rfl fun k _ => ?_
  have hk := ValueIdx.contrEquiv1_symm_val dot_S512x256_S256x1024_S512x1024_1_0_0_1_n_n 256 rfl rfl k
  have el : dot_S512x256_S256x1024_S512x1024_1_0_0_1_n_n.lhsIdx (ix2 p n) ((ValueIdx.contrEquiv1 dot_S512x256_S256x1024_S512x1024_1_0_0_1_n_n 256 rfl rfl).symm k) = ix2 p k := funext fun ax => Fin.ext (by
    match ax with
    | ⟨0, _⟩ => exact lhs_fc2_0 _ _
    | ⟨1, _⟩ => exact (lhs_fc2_1 _ _).trans hk)
  have er : dot_S512x256_S256x1024_S512x1024_1_0_0_1_n_n.rhsIdx (ix2 p n) ((ValueIdx.contrEquiv1 dot_S512x256_S256x1024_S512x1024_1_0_0_1_n_n 256 rfl rfl).symm k) = ix2 k n := funext fun ax => Fin.ext (by
    match ax with
    | ⟨0, _⟩ => exact (rhs_fc2_0 _ _).trans hk
    | ⟨1, _⟩ => exact rhs_fc2_1 _ _)
  rw [el, er]

/-- The bias row, cast to its own shape (the identity) and repeated down 512 rows, read at (p, n): the row's entry at n. -/
theorem bias2_apply (v63 : Vec Ideal S1x1024 .f32) (p : Fin 512) (n : Fin 1024) :
    broadcastTo S512x1024 (shapeCast S1x1024 v63 shapeCasts_S1x1024_S1x1024) broadcasts_S1x1024_S512x1024 (ix2 p n)
      = v63 (ix2 (0 : Fin 1) n) := by
  rw [shapeCast_self]
  exact broadcastTo_1b_ab_apply v63 broadcasts_S1x1024_S512x1024 p n

/-! ## The layer -/

/-- The second layer for all eight buckets over ANY accumulated first-layer pieces: the clamp of the eight-term
    accumulation (six terms given, the seventh and eighth added here), times a column of the second weights, plus the bias row. -/
theorem fc2_generic (v7 : FVec Ideal S512x8 .f32) (v14 : FVec Ideal S512x2048 .f32) (v45 v47 v48 : FVec Ideal S512x256 .f32)
    (v61 : Vec Ideal S256x1024 .bf16) (v63 : Vec Ideal S1x1024 .f32) (p : Fin 512) (n : Fin 1024) :
    k0_pay7 (F := Ideal) v7 v14 v45 v47 v48 v61 v63 (ix2 p n)
      = (∑ k : Fin 256, clip01 ((v45 (ix2 p k) + v47 (ix2 p k) * v48 (ix2 p k))
            + v14 (ix2 p (slot256 7 k)) * v7 (ix2 p (7 : Fin 8))) * v61 (ix2 k n)) + v63 (ix2 (0 : Fin 1) n) := by
  -- the outer sum of product and bias row, entry by entry
  unfold k0_pay7
  refine (addf_apply _ _ _).trans ?_
  refine congrArg₂ (· + ·) ?_ (bias2_apply v63 p n)
  -- the product: a sum over the 256 contracted columns
  refine (matmul_fc2_apply _ _ p n).trans ?_
  refine Finset.sum_congr rfl fun k _ => ?_
  -- the weights' cast to their own shape is the identity
  rw [shapeCast_self]
  refine congrArg (· * v61 (ix2 k n)) ?_
  -- the narrowing to bf16 is the identity on the extended reals, and minimum-with-one of maximum-with-zero is the
  -- clamp; the pointwise sums and products read entry by entry
  show clip01 ((v45 (ix2 p k) + v47 (ix2 p k) * v48 (ix2 p k)) + _ * _) = _
  rw [slice7_apply, col7_apply]

/-- The second layer of one sample whose index word is in range: over the clamped first-layer slice of its bucket. -/
theorem fc2_apply (x0 : Vec Ideal S512x2048 .f32) (x1 : Vec Ideal S512x1 .i32) (x2 : Vec Ideal S2048x2048 .f32)
    (x3 : Vec Ideal S1x2048 .f32) (x4 : Vec Ideal S256x1024 .bf16) (x5 : Vec Ideal S1x1024 .f32) (p : Fin 512) (n : Fin 1024)
    (hv : 0 ≤ (x1 (ix2 p (0 : Fin 1))).toInt ∧ (x1 (ix2 p (0 : Fin 1))).toInt < 8) :
    k0_pay7 (F := Ideal) (k0_pay2 x1) (k0_pay3 x0 x2 x3) (k0_pay4 x0 x1 x2 x3) (k0_pay5 x0 x2 x3) (k0_pay6 x1) x4 x5 (ix2 p n)
      = (∑ k : Fin 256, klay1 (fun k => x0 (ix2 p k)) (bucketOf (x1 (ix2 p (0 : Fin 1)))) x2 x3 k * x4 (ix2 k n))
          + x5 (ix2 (0 : Fin 1) n) := by
  refine (fc2_generic _ _ _ _ _ x4 x5 p n).trans ?_
  refine congrArg (· + x5 (ix2 (0 : Fin 1) n)) ?_
  refine Finset.sum_congr rfl fun k _ => ?_
  refine congrArg (· * x4 (ix2 k n)) ?_
  -- the six accumulated terms, the seventh slice and the seventh column, each over the first layer and the one-hot row
  rw [acc6_apply, slice6_apply, col6_apply]
  simp only [onehot_apply]
  -- eight products with the indicator row of the sample's bucket, accumulated from zero, keep the bucket's term
  refine (congrArg clip01 (sel8 (fun c => k0_pay3 (F := Ideal) x0 x2 x3 (ix2 p (slot256 c k)))
    (bucketOf (x1 (ix2 p (0 : Fin 1)))) (fun c => oh (x1 (ix2 p (0 : Fin 1))) c)
    (fun c => oh_bucketOf _ hv c))).trans ?_
  show clip01 (k0_pay3 (F := Ideal) x0 x2 x3 (ix2 p (slot256 (bucketOf (x1 (ix2 p (0 : Fin 1)))) k))) = _
  -- the first layer at that column is the specification's first layer of the bucket
  rw [fc1_apply]
  rfl

end Cert.KernelIdeal.Mlp

end
-- ==== Proof.Layer3.lean ====
/-
  The selection after the second layer and the third linear layer of the tiled program, read at an index.

  From ANY [512, 1024] second-layer matrix `s` (eight buckets, 128 columns each) and ANY [512, 8] matrix whose row `p` is
  the indicator of a bucket `b`: the eight 128-column slices of `s`, each times its indicator column, added up from zero,
  leave in row `p` the slice of bucket `b`; it is clamped to [0, 1], its lower 64 columns meet the transposed third
  weights (plus the bias row), and the eight outputs, multiplied by the indicator row and summed over the eight lanes,
  leave the output of bucket `b`.  Both selections are exact on the extended reals: `a · 0 = 0`, `a · 1 = a`, `0 + a = a`.
-/
import proofs.«430041_j79096117723303_3_alg».proof.Proof.Gen.KernelIdeal.Skeleton
import proofs.«430041_j79096117723303_3_alg».proof.Proof.Spec
import proofs.«430041_j79096117723303_3_alg».proof.Proof.LibColumn
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Mlp

open Idealize.ShloMosaic Idealize.ShloMosaic.TcCoe Idealize.ShloMosaic.ValueIdx Cert.BucketMlp Cert.KernelIdeal Cert.KernelIdeal.Gen

/-! The third layer's pieces, each read at an index. -/
namespace Third

/-- Column `j` of block `c` among eight blocks of 128 columns. -/
def col128 (c : Fin 8) (j : Fin 128) : Fin 1024 := ⟨c.val * 128 + j.val, by omega⟩

/-- The lower half of 128 columns. -/
def low64 (k : Fin 64) : Fin 128 := ⟨k.val, by omega⟩

/-- A lower-half column of block `b` is the bucket's slot among the 1024 columns. -/
theorem col128_low64 (b : Fin 8) (k : Fin 64) : col128 b (low64 k) = slot128 b k := rfl

/-- Column `c` of a `[512, 8]` array, cut out as a `[512, 1]` column, reads the array's entry `(p, c)`. -/
theorem colOf8 (v7 : FVec Ideal S512x8 .f32) (o : Nat) (h : S512x8.Slices ![0, o] S512x1) (p : Fin 512) (c : Fin 8)
    (hc : c.val = o) : extractStridedSlice S512x1 ![0, o] v7 h (ix2 p (0 : Fin 1)) = v7 (ix2 p c) :=
  slice2_axis1_apply o v7 h p (0 : Fin 1) c (by rw [hc]; rfl)

/-- One term of the selection: the 128-column slice of `S` from column `o`, times column `c` of `v7` repeated along the row. -/
theorem term_apply (S : FVec Ideal S512x1024 .f32) (v7 : FVec Ideal S512x8 .f32) (o o7 : Nat)
    (hS : S512x1024.Slices ![0, o] S512x128) (h7 : S512x8.Slices ![0, o7] S512x1) (p : Fin 512) (j : Fin 128)
    (c : Fin 8) (hk : (col128 c j).val = o + j.val) (hc : c.val = o7) :
    mulf (extractStridedSlice S512x128 ![0, o] S hS)
        (broadcastTo S512x128 (extractStridedSlice S512x1 ![0, o7] v7 h7) broadcasts_S512x1_S512x128) (ix2 p j)
      = S (ix2 p (col128 c j)) * v7 (ix2 p c) := by
  rw [mulf_apply, slice2_axis1_apply o S hS p j (col128 c j) hk, Cert.LibColumn.broadcastTo_a1_ab_apply, colOf8 v7 o7 h7 p c hc]

/-- The seventh column of the indicator array, as the column the last accumulation steps multiply by. -/
theorem pay9_apply (v7 : FVec Ideal S512x8 .f32) (p : Fin 512) :
    k0_pay9 (F := Ideal) v7 (ix2 p (0 : Fin 1)) = v7 (ix2 p (6 : Fin 8)) :=
  colOf8 v7 6 slices_S512x8_o0_6_S512x1 p 6 rfl

/-- The seventh 128-column block of the second-layer values. -/
theorem pay10_apply (v7 : FVec Ideal S512x8 .f32) (v14 : FVec Ideal S512x2048 .f32) (v45 v47 v48 : FVec Ideal S512x256 .f32)
    (v61 : Vec Ideal S256x1024 .bf16) (v63 : Vec Ideal S1x1024 .f32) (p : Fin 512) (j : Fin 128) :
    k0_pay10 (F := Ideal) v7 v14 v45 v47 v48 v61 v63 (ix2 p j)
      = k0_pay7 (F := Ideal) v7 v14 v45 v47 v48 v61 v63 (ix2 p (col128 6 j)) :=
  slice2_axis1_apply 768 (k0_pay7 (F := Ideal) v7 v14 v45 v47 v48 v61 v63) slices_S512x1024_o0_768_S512x128 p j (col128 6 j) rfl

/-- The first six terms of the selection, accumulated from the zero splat left to right. -/
theorem pay8_apply (v7 : FVec Ideal S512x8 .f32) (v14 : FVec Ideal S512x2048 .f32) (v45 v47 v48 : FVec Ideal S512x256 .f32)
    (v61 : Vec Ideal S256x1024 .bf16) (v63 : Vec Ideal S1x1024 .f32) (p : Fin 512) (j : Fin 128) :
    k0_pay8 (F := Ideal) v7 v14 v45 v47 v48 v61 v63 (ix2 p j)
      = ((((((0 + k0_pay7 (F := Ideal) v7 v14 v45 v47 v48 v61 v63 (ix2 p (col128 0 j)) * v7 (ix2 p (0 : Fin 8)))
          + k0_pay7 (F := Ideal) v7 v14 v45 v47 v48 v61 v63 (ix2 p (col128 1 j)) * v7 (ix2 p (1 : Fin 8)))
          + k0_pay7 (F := Ideal) v7 v14 v45 v47 v48 v61 v63 (ix2 p (col128 2 j)) * v7 (ix2 p (2 : Fin 8)))
          + k0_pay7 (F := Ideal) v7 v14 v45 v47 v48 v61 v63 (ix2 p (col128 3 j)) * v7 (ix2 p (3 : Fin 8)))
          + k0_pay7 (F := Ideal) v7 v14 v45 v47 v48 v61 v63 (ix2 p (col128 4 j)) * v7 (ix2 p (4 : Fin 8)))
          + k0_pay7 (F := Ideal) v7 v14 v45 v47 v48 v61 v63 (ix2 p (col128 5 j)) * v7 (ix2 p (5 : Fin 8))) := by
  unfold k0_pay8
  generalize k0_pay7 (F := Ideal) v7 v14 v45 v47 v48 v61 v63 = S
  rw [addf_apply, term_apply S v7 640 5 slices_S512x1024_o0_640_S512x128 slices_S512x8_o0_5_S512x1 p j 5 rfl rfl,
    addf_apply, term_apply S v7 512 4 slices_S512x1024_o0_512_S512x128 slices_S512x8_o0_4_S512x1 p j 4 rfl rfl,
    addf_apply, term_apply S v7 384 3 slices_S512x1024_o0_384_S512x128 slices_S512x8_o0_3_S512x1 p j 3 rfl rfl,
    addf_apply, term_apply S v7 256 2 slices_S512x1024_o0_256_S512x128 slices_S512x8_o0_2_S512x1 p j 2 rfl rfl,
    addf_apply, term_apply S v7 128 1 slices_S512x1024_o0_128_S512x128 slices_S512x8_o0_1_S512x1 p j 1 rfl rfl,
    addf_apply, term_apply S v7 0 0 slices_S512x1024_o0_0_S512x128 slices_S512x8_o0_0_S512x1 p j 0 rfl rfl,
    broadcast_apply]
  exact congrArg (fun z => (((((z + _) + _) + _) + _) + _) + _) Ideal.ofBits_zero_f32

/-- The sum over the eight lanes of a `[512, 8]` array, from the neutral zero, at row `p`. -/
theorem rowSum8_apply (src : FVec Ideal S512x8 .f32) (p : Fin 512) :
    multiReduction (F := Ideal) .add [1] S512 src 0x00000000#32 reduces_S512x8_S512 (.inl rfl) rfl (ix1 p)
      = ∑ c : Fin 8, src (ix2 p c) := by
  refine (Ideal.multiReduction_add_single src 0x00000000#32 reduces_S512x8_S512 (.inl rfl) rfl (ix1 p)).trans ?_
  show ∑ c : Fin 8, src (reduces_S512x8_S512.lift (ix1 p) c) = _
  refine Finset.sum_congr rfl fun c _ => congrArg src (funext fun a => Fin.ext ?_)
  match a with
  | ⟨0, _⟩ => rfl
  | ⟨1, _⟩ => rfl

/-! The third product's operand indices, axis by axis: the left operand keeps the output's row and takes the contraction
    coordinate as its column; the right operand takes the contraction coordinate as its row and keeps the output's column. -/
theorem lhs_fc3_0 (i : S512x8.Idx) (q : dot_S512x64_S64x8_S512x8_1_0_0_1_n_n.contr.Idx) :
    (dot_S512x64_S64x8_S512x8_1_0_0_1_n_n.lhsIdx i q 0).val = (i 0).val := by
  unfold DotDims.lhsIdx
  rw [dif_neg (show ¬(0 : Fin S512x64.rank) ∈ dot_S512x64_S64x8_S512x8_1_0_0_1_n_n.lhsBatch by decide), dif_pos (show (0 : Fin S512x64.rank) ∈ dot_S512x64_S64x8_S512x8_1_0_0_1_n_n.lhsNonContracting by decide)]
  rfl
theorem lhs_fc3_1 (i : S512x8.Idx) (q : dot_S512x64_S64x8_S512x8_1_0_0_1_n_n.contr.Idx) :
    (dot_S512x64_S64x8_S512x8_1_0_0_1_n_n.lhsIdx i q 1).val = (q ⟨0, by decide⟩).val :=
  dot_S512x64_S64x8_S512x8_1_0_0_1_n_n.lhsIdx_val_of_single rfl i q
theorem rhs_fc3_0 (i : S512x8.Idx) (q : dot_S512x64_S64x8_S512x8_1_0_0_1_n_n.contr.Idx) :
    (dot_S512x64_S64x8_S512x8_1_0_0_1_n_n.rhsIdx i q 0).val = (q ⟨0, by decide⟩).val :=
  dot_S512x64_S64x8_S512x8_1_0_0_1_n_n.rhsIdx_val_of_single rfl i q
theorem rhs_fc3_1 (i : S512x8.Idx) (q : dot_S512x64_S64x8_S512x8_1_0_0_1_n_n.contr.Idx) :
    (dot_S512x64_S64x8_S512x8_1_0_0_1_n_n.rhsIdx i q 1).val = (i 1).val := by
  unfold DotDims.rhsIdx
  rw [dif_neg (show ¬(1 : Fin S64x8.rank) ∈ dot_S512x64_S64x8_S512x8_1_0_0_1_n_n.rhsBatch by decide), dif_pos (show (1 : Fin S64x8.rank) ∈ dot_S512x64_S64x8_S512x8_1_0_0_1_n_n.rhsNonContracting by decide)]
  rfl

/-- The third product into the zero accumulator, at `(p, c)`: row `p` of the left operand against column `c` of the right. -/
theorem matmul_fc3_apply (A : FVec Ideal S512x64 .bf16) (B : FVec Ideal S64x8 .bf16) (p : Fin 512) (c : Fin 8) :
    matmul dot_S512x64_S64x8_S512x8_1_0_0_1_n_n none A B (constant (F := Ideal) S512x8 .f32 0x00000000#32) (ix2 p c)
      = ∑ k : Fin 64, A (ix2 p k) * B (ix2 k c) := by
  simp only [matmul]
  rw [Ideal.matmul_constant_zero_apply, ← Equiv.sum_comp (contrEquiv1 dot_S512x64_S64x8_S512x8_1_0_0_1_n_n 64 rfl rfl).symm]
  refine Finset.sum_congr rfl fun k _ => ?_
  have hk := contrEquiv1_symm_val dot_S512x64_S64x8_S512x8_1_0_0_1_n_n 64 rfl rfl k
  have el : dot_S512x64_S64x8_S512x8_1_0_0_1_n_n.lhsIdx (ix2 p c) ((contrEquiv1 dot_S512x64_S64x8_S512x8_1_0_0_1_n_n 64 rfl rfl).symm k) = ix2 p k := funext fun a => Fin.ext (by
    match a with
    | ⟨0, _⟩ => exact lhs_fc3_0 _ _
    | ⟨1, _⟩ => exact (lhs_fc3_1 _ _).trans hk)
  have er : dot_S512x64_S64x8_S512x8_1_0_0_1_n_n.rhsIdx (ix2 p c) ((contrEquiv1 dot_S512x64_S64x8_S512x8_1_0_0_1_n_n 64 rfl rfl).symm k) = ix2 k c := funext fun a => Fin.ext (by
    match a with
    | ⟨0, _⟩ => exact (rhs_fc3_0 _ _).trans hk
    | ⟨1, _⟩ => exact rhs_fc3_1 _ _)
  rw [el, er]

/-- The stored column over ANY of its seven operands: the eighth term completes the selection, the clamp, the lower 64
    columns against the third weights plus the bias row, and the indicator row selecting among the eight outputs. -/
theorem pay1_apply (v7 : FVec Ideal S512x8 .f32) (v67 : FVec Ideal S512x1024 .f32) (v98 : FVec Ideal S512x128 .f32)
    (v99 : FVec Ideal S512x1 .f32) (v100 : FVec Ideal S512x128 .f32) (x6 : Vec Ideal S64x8 .bf16) (x7 : Vec Ideal S1x8 .f32)
    (p : Fin 512) :
    k0_pay1 (F := Ideal) v7 v67 v98 v99 v100 x6 x7 (ix2 p (0 : Fin 1))
      = ∑ c : Fin 8, ((∑ k : Fin 64,
            clip01 ((v98 (ix2 p (low64 k)) + v100 (ix2 p (low64 k)) * v99 (ix2 p (0 : Fin 1)))
              + v67 (ix2 p (col128 7 (low64 k))) * v7 (ix2 p (7 : Fin 8))) * x6 (ix2 k c))
          + x7 (ix2 (0 : Fin 1) c)) * v7 (ix2 p c) := by
  unfold k0_pay1
  rw [Cert.LibColumn.shapeCast_a_a1_apply, rowSum8_apply]
  refine Finset.sum_congr rfl fun c _ => ?_
  rw [mulf_apply, addf_apply, matmul_fc3_apply, broadcastTo_1b_ab_apply, shapeCast_self, shapeCast_self]
  refine congrArg (fun z => (z + _) * _) (Finset.sum_congr rfl fun k _ => congrArg (· * _) ?_)
  rw [truncf_apply, slice2_axis1_apply 0 _ slices_S512x128_o0_0_S512x64 p k (low64 k) (Nat.zero_add _).symm,
    minimumf_apply, maximumf_apply, broadcast_apply, broadcast_apply, addf_apply, addf_apply, mulf_apply,
    Cert.LibColumn.broadcastTo_a1_ab_apply,
    term_apply v67 v7 896 7 slices_S512x1024_o0_896_S512x128 slices_S512x8_o0_7_S512x1 p (low64 k) 7 rfl rfl]
  rfl

end Third

open Third

/-- The third layer of one sample over ANY second-layer values `s` and ANY indicator row: the bucket's 128-column slice
    of `s` is selected (six terms in one piece, two more here), clamped, its lower 64 columns meet the third weights, and the
    eight outputs are selected by the indicator row once more. -/
theorem layer3_apply (v7 : FVec Ideal S512x8 .f32) (v14 : FVec Ideal S512x2048 .f32) (v45 v47 v48 : FVec Ideal S512x256 .f32)
    (v61 : Vec Ideal S256x1024 .bf16) (v63 : Vec Ideal S1x1024 .f32) (x6 : Vec Ideal S64x8 .bf16) (x7 : Vec Ideal S1x8 .f32)
    (p : Fin 512) (b : Fin 8) (hoh : ∀ c : Fin 8, v7 (ix2 p c) = if b = c then 1 else 0) :
    k0_pay1 (F := Ideal) v7 (k0_pay7 v7 v14 v45 v47 v48 v61 v63) (k0_pay8 v7 v14 v45 v47 v48 v61 v63) (k0_pay9 v7)
        (k0_pay10 v7 v14 v45 v47 v48 v61 v63) x6 x7 (ix2 p (0 : Fin 1))
      = klay3 (fun j => clip01 (k0_pay7 (F := Ideal) v7 v14 v45 v47 v48 v61 v63 (ix2 p (slot128 b j)))) b x6 x7 := by
  rw [pay1_apply]
  unfold klay3
  -- the indicator row keeps, of the eight outputs, the bucket's
  refine (sum_sel8 _ b (fun c => v7 (ix2 p c)) hoh).trans ?_
  refine congrArg (· + _) (Finset.sum_congr rfl fun k _ => congrArg (fun z => clip01 z * _) ?_)
  -- and, of the eight 128-column blocks of the second-layer values, the bucket's
  rw [pay8_apply, pay10_apply, pay9_apply]
  exact sel8 (fun c => k0_pay7 (F := Ideal) v7 v14 v45 v47 v48 v61 v63 (ix2 p (col128 c (low64 k)))) b
    (fun c => v7 (ix2 p c)) hoh

end Cert.KernelIdeal.Mlp

end
-- ==== Proof.BlockValue.lean ====
/-
  What one grid point writes back, row by row.

  A grid point stores its [512, 1] result once, over the whole staging block, so the block after the body is that one
  stored value.  Row `p` of it is the third layer's selection (Layer3) applied to the second layer (Layer2) of the
  sample in row `p`, with the one-hot row of that sample's index word — the indicator of its bucket when the word is in
  range: the sample through the three layers, weights in the layout the program is handed.
-/
import proofs.«430041_j79096117723303_3_alg».proof.Proof.Gen.KernelIdeal.Frame
import proofs.«430041_j79096117723303_3_alg».proof.Proof.Layer2
import proofs.«430041_j79096117723303_3_alg».proof.Proof.Layer3

noncomputable section

namespace Cert.KernelIdeal.Mlp

open Idealize.ShloMosaic Idealize.ShloMosaic.TcCoe Idealize.ShloMosaic.ValueIdx Cert.BucketMlp Cert.KernelIdeal Cert.KernelIdeal.Gen

/-- The offsets of every whole-block load and of the one whole-block store are zero on both axes. -/
theorem block_offsets_zero : (![0, 0] : Fin 2 → Nat) = fun _ => 0 :=
  funext fun a => match a with
    | ⟨0, _⟩ => rfl
    | ⟨1, _⟩ => rfl

/-- What one grid point leaves in row `p` of its output block, from the point's input blocks: the sample of that row
    through the three layers, the weights in the layout the program is handed — whenever the row's index word is in range. -/
theorem block_out_apply (x0 : Vec Ideal S512x2048 .f32) (x1 : Vec Ideal S512x1 .i32) (x2 : Vec Ideal S2048x2048 .f32)
    (x3 : Vec Ideal S1x2048 .f32) (x4 : Vec Ideal S256x1024 .bf16) (x5 : Vec Ideal S1x1024 .f32) (x6 : Vec Ideal S64x8 .bf16)
    (x7 : Vec Ideal S1x8 .f32) (p : Fin 512)
    (hv : 0 ≤ (x1 (ix2 p (0 : Fin 1))).toInt ∧ (x1 (ix2 p (0 : Fin 1))).toInt < 8) :
    out0_8 (F := Ideal) x0 x1 x2 x3 x4 x5 x6 x7 (ix2 p (0 : Fin 1))
      = kRow (fun k => x0 (ix2 p k)) (bucketOf (x1 (ix2 p (0 : Fin 1)))) x2 x3 x4 x5 x6 x7 := by
  unfold out0_8
  -- the one store covers the block, and every load reads its whole block
  rw [View.canon_unit_zero block_offsets_zero]
  simp only [View.ld_unit_zero (S := S512x2048) block_offsets_zero, View.ld_unit_zero (S := S512x1) block_offsets_zero,
    View.ld_unit_zero (S := S2048x2048) block_offsets_zero, View.ld_unit_zero (S := S1x2048) block_offsets_zero,
    View.ld_unit_zero (S := S256x1024) block_offsets_zero, View.ld_unit_zero (S := S1x1024) block_offsets_zero,
    View.ld_unit_zero (S := S64x8) block_offsets_zero, View.ld_unit_zero (S := S1x8) block_offsets_zero]
  -- the third layer over the second-layer values, the one-hot row of an index word in range being its bucket's indicator
  refine (layer3_apply (k0_pay2 (F := Ideal) x1) (k0_pay3 (F := Ideal) x0 x2 x3) (k0_pay4 (F := Ideal) x0 x1 x2 x3)
    (k0_pay5 (F := Ideal) x0 x2 x3) (k0_pay6 (F := Ideal) x1) x4 x5 x6 x7 p (bucketOf (x1 (ix2 p (0 : Fin 1))))
    (fun c => by rw [onehot_apply, oh_bucketOf _ hv])).trans ?_
  unfold kRow klay3 klay2
  -- the second-layer values at the bucket's slots, over the clamped first-layer slice of the bucket
  refine congrArg (· + _) (Finset.sum_congr rfl fun k _ => congrArg (fun z => clip01 z * _) ?_)
  exact fc2_apply x0 x1 x2 x3 x4 x5 p (slot128 (bucketOf (x1 (ix2 p (0 : Fin 1)))) k) hv

end Cert.KernelIdeal.Mlp

end
-- ==== Proof.HostSide.lean ====
import proofs.«430041_j79096117723303_3_alg».proof.Proof.Gen.KernelIdeal.Frame
import proofs.«430041_j79096117723303_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost

/-
  The seven operands of the tiled program, read at an index in terms of the arguments.

  Before the tiled region is entered, each operand is computed from an argument by a short chain of layout
  operations. For each operand there are two facts here. The first (`…_eq`) says which chain it is: the contents the
  region finds are the chain's value at the argument. The second reads that value at one index, one layout
  operation at a time, outermost first: a transpose swaps coordinates; a reshape keeps the row-major position
  (so column `128·b + j` of a `[256, 1024]` matrix is entry `(b, j)` of a `[256, 8, 128]` array, and row `64·b + j`
  of a `[512, 256]` matrix is entry `(b, j)` of an `[8, 64, 256]` array); a padding that appends 64 rows behind each
  bucket's 64 leaves rows `j < 64` as they were, so the padding value is never read; narrowing a float format is the
  identity on the extended reals. The index words are clamped into `[0, 7]` by a maximum with 0 and a minimum with 7,
  which fix every word whose signed value already lies there.
-/

noncomputable section

namespace Cert.KernelIdeal.Mlp

open Idealize.ShloMosaic Idealize.ShloMosaic.TcCoe Idealize.ShloMosaic.ValueIdx Cert.BucketMlp Cert.KernelIdeal Cert.KernelIdeal.Gen Idealize.SL.Sem

variable (m : (ℓ : Loc nD τ sig) → Buf (Elt Ideal) ℓ) (c : Dev nD)

/-! ## The first layer -/

/-- The region finds the first weights as the transpose of the argument. -/
theorem V_w1t_eq :
    (V m c main_v0 : S2048x2048.Idx → EReal)
      = transpose S2048x2048 [1, 0] (m ((c : Thread nD τ).loc main_arg2) : S2048x2048.Idx → EReal) transposes_S2048x2048_S2048x2048_1_0 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results

/-- The first weights as the region finds them: transposed. -/
theorem V_w1t (k n : Fin 2048) :
    (V m c main_v0 : S2048x2048.Idx → EReal) (ix2 k n) = (m ((c : Thread nD τ).loc main_arg2) : S2048x2048.Idx → EReal) (ix2 n k) := by
  rw [V_w1t_eq]
  exact transpose_apply [1, 0] _ transposes_S2048x2048_S2048x2048_1_0 (ix2 k n) (ix2 n k) (fun b => match b with
    | ⟨0, _⟩ => rfl
    | ⟨1, _⟩ => rfl)

/-- The region finds the first bias as the argument cast to one row. -/
theorem V_b1r_eq :
    (V m c main_v1 : S1x2048.Idx → EReal)
      = shapeCast S1x2048 (m ((c : Thread nD τ).loc main_arg3) : S2048.Idx → EReal) shapeCasts_S2048_S1x2048 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-- The first bias as a one-row matrix. -/
theorem V_b1r (n : Fin 2048) :
    (V m c main_v1 : S1x2048.Idx → EReal) (ix2 (0 : Fin 1) n) = (m ((c : Thread nD τ).loc main_arg3) : S2048.Idx → EReal) (ix1 n) := by
  rw [V_b1r_eq]
  exact shapeCast_apply _ shapeCasts_S2048_S1x2048 (ix2 (0 : Fin 1) n) (ix1 n) (by
    rw [Shape.rowMajor_val_one, Shape.rowMajor_val_two]
    show n.val = (0 : Fin 1).val * 2048 + n.val
    simp)

/-! ## The second layer -/

/-- The region finds the second weights as the argument cut into eight buckets of 64 rows, each padded behind to 128
    rows, the column axis brought to the front, the buckets laid side by side, and narrowed (no change on the
    extended reals). -/
theorem V_w2t_eq :
    (V m c main_v6 : S256x1024.Idx → EReal)
      = truncf (F := Ideal) (φ := .f32) .bf16
          (shapeCast S256x1024
            (transpose S256x8x128 [2, 0, 1]
              (pad S8x128x256 ![0, 0, 0] ![0, 64, 0] ![0, 0, 0]
                (shapeCast S8x64x256 (m ((c : Thread nD τ).loc main_arg4) : S512x256.Idx → EReal) shapeCasts_S512x256_S8x64x256)
                (sitofp (F := Ideal) .f32 (constantI S_ 32 0#32))
                pads_S8x64x256_S8x128x256_000_0640_000 h_S_)
              transposes_S8x128x256_S256x8x128_2_0_1)
            shapeCasts_S256x8x128_S256x1024)
          bitsLt_bf16_f32 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-- The second weights: bucket `b`'s 64 rows padded to 128, transposed, the buckets side by side; a lower-half column is the given row. -/
theorem V_w2t (k : Fin 256) (b : Fin 8) (j : Fin 64) :
    (V m c main_v6 : S256x1024.Idx → EReal) (ix2 k (slot128 b j)) = (m ((c : Thread nD τ).loc main_arg4) : S512x256.Idx → EReal) (ix2 (slot64 b j) k) := by
  have hb : b.val < 8 := b.isLt
  have hj : j.val < 64 := j.isLt
  have hk : k.val < 256 := k.isLt
  rw [V_w2t_eq, truncf_apply]
  -- column 128·b + j of the side-by-side layout is bucket b, row j
  refine (shapeCast_apply _ shapeCasts_S256x8x128_S256x1024 (ix2 k (slot128 b j))
    (ix3 k b (⟨j.val, by omega⟩ : Fin 128)) (by
      rw [Shape.rowMajor_val_three, Shape.rowMajor_val_two]
      show (k.val * 8 + b.val) * 128 + j.val = k.val * 1024 + (b.val * 128 + j.val)
      omega)).trans ?_
  -- the column axis goes back behind the bucket and row axes
  refine (transpose_apply [2, 0, 1] _ transposes_S8x128x256_S256x8x128_2_0_1 (ix3 k b (⟨j.val, by omega⟩ : Fin 128))
    (ix3 b (⟨j.val, by omega⟩ : Fin 128) k) (fun a => match a with
      | ⟨0, _⟩ => rfl
      | ⟨1, _⟩ => rfl
      | ⟨2, _⟩ => rfl)).trans ?_
  -- row j < 64 lies in the part that was there before the padding
  refine (pad_apply_of_inside _ _ _ _ _ pads_S8x64x256_S8x128x256_000_0640_000 h_S_ (ix3 b (⟨j.val, by omega⟩ : Fin 128) k)
    (ix3 b j k) (fun a => match a with
      | ⟨0, _⟩ => by show b.val = 0 + b.val * (0 + 1); omega
      | ⟨1, _⟩ => by show j.val = 0 + j.val * (0 + 1); omega
      | ⟨2, _⟩ => by show k.val = 0 + k.val * (0 + 1); omega)).trans ?_
  -- bucket b's row j is row 64·b + j of the given matrix
  exact shapeCast_apply _ shapeCasts_S512x256_S8x64x256 (ix3 b j k) (ix2 (slot64 b j) k) (by
    rw [Shape.rowMajor_val_three, Shape.rowMajor_val_two]
    rfl)

/-- The region finds the second bias as the argument cut into eight buckets of 64 entries, each padded behind to 128,
    laid out as one row. -/
theorem V_b2p_eq :
    (V m c main_v9 : S1x1024.Idx → EReal)
      = shapeCast S1x1024
          (pad S8x128 ![0, 0] ![0, 64] ![0, 0]
            (shapeCast S8x64 (m ((c : Thread nD τ).loc main_arg5) : S512.Idx → EReal) shapeCasts_S512_S8x64)
            (sitofp (F := Ideal) .f32 (constantI S_ 32 0#32))
            pads_S8x64_S8x128_000_0640 h_S_)
          shapeCasts_S8x128_S1x1024 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-- The second bias, padded the same way, as a one-row matrix. -/
theorem V_b2p (b : Fin 8) (j : Fin 64) :
    (V m c main_v9 : S1x1024.Idx → EReal) (ix2 (0 : Fin 1) (slot128 b j)) = (m ((c : Thread nD τ).loc main_arg5) : S512.Idx → EReal) (ix1 (slot64 b j)) := by
  have hb : b.val < 8 := b.isLt
  have hj : j.val < 64 := j.isLt
  rw [V_b2p_eq]
  -- entry 128·b + j of the row is bucket b, entry j
  refine (shapeCast_apply _ shapeCasts_S8x128_S1x1024 (ix2 (0 : Fin 1) (slot128 b j))
    (ix2 b (⟨j.val, by omega⟩ : Fin 128)) (by
      rw [Shape.rowMajor_val_two, Shape.rowMajor_val_two]
      show b.val * 128 + j.val = (0 : Fin 1).val * 1024 + (b.val * 128 + j.val)
      simp)).trans ?_
  -- entry j < 64 lies in the part that was there before the padding
  refine (pad_apply_of_inside _ _ _ _ _ pads_S8x64_S8x128_000_0640 h_S_ (ix2 b (⟨j.val, by omega⟩ : Fin 128))
    (ix2 b j) (fun a => match a with
      | ⟨0, _⟩ => by show b.val = 0 + b.val * (0 + 1); omega
      | ⟨1, _⟩ => by show j.val = 0 + j.val * (0 + 1); omega)).trans ?_
  -- bucket b's entry j is entry 64·b + j of the given vector
  exact shapeCast_apply _ shapeCasts_S512_S8x64 (ix2 b j) (ix1 (slot64 b j)) (by
    rw [Shape.rowMajor_val_one, Shape.rowMajor_val_two]
    rfl)

/-! ## The third layer -/

/-- The region finds the third weights as the transpose of the argument, narrowed (no change on the extended reals). -/
theorem V_w3t_eq :
    (V m c main_v11 : S64x8.Idx → EReal)
      = truncf (F := Ideal) (φ := .f32) .bf16 (transpose S64x8 [1, 0] (m ((c : Thread nD τ).loc main_arg6) : S8x64.Idx → EReal) transposes_S8x64_S64x8_1_0) bitsLt_bf16_f32 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results

/-- The third weights, transposed. -/
theorem V_w3t (k : Fin 64) (b : Fin 8) :
    (V m c main_v11 : S64x8.Idx → EReal) (ix2 k b) = (m ((c : Thread nD τ).loc main_arg6) : S8x64.Idx → EReal) (ix2 b k) := by
  rw [V_w3t_eq, truncf_apply]
  exact transpose_apply [1, 0] _ transposes_S8x64_S64x8_1_0 (ix2 k b) (ix2 b k) (fun a => match a with
    | ⟨0, _⟩ => rfl
    | ⟨1, _⟩ => rfl)

/-- The region finds the third bias as the argument cast to one row. -/
theorem V_b3r_eq :
    (V m c main_v12 : S1x8.Idx → EReal)
      = shapeCast S1x8 (m ((c : Thread nD τ).loc main_arg7) : S8.Idx → EReal) shapeCasts_S8_S1x8 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-- The third bias as a one-row matrix. -/
theorem V_b3r (b : Fin 8) :
    (V m c main_v12 : S1x8.Idx → EReal) (ix2 (0 : Fin 1) b) = (m ((c : Thread nD τ).loc main_arg7) : S8.Idx → EReal) (ix1 b) := by
  rw [V_b3r_eq]
  exact shapeCast_apply _ shapeCasts_S8_S1x8 (ix2 (0 : Fin 1) b) (ix1 b) (by
    rw [Shape.rowMajor_val_one, Shape.rowMajor_val_two]
    show b.val = (0 : Fin 1).val * 8 + b.val
    simp)

/-! ## The index words -/

/-- A word whose signed value lies in `[0, 7]` is left as it is by the maximum with zero followed by the minimum
    with seven: the signed value is not below 0, and 7 is not below it. -/
theorem clamp07_of_inRange (v : BitVec 32) (hv : 0 ≤ v.toInt ∧ v.toInt < 8) :
    IntOp.minsi (7#32) (IntOp.maxsi (0#32) v) = v := by
  have h0 : (0#32 : BitVec 32).toInt = 0 := by decide
  have h7 : (7#32 : BitVec 32).toInt = 7 := by decide
  have e1 : IntOp.maxsi (0#32) v = v := by
    unfold IntOp.maxsi
    rw [if_neg]
    simp only [BitVec.slt, h0, decide_eq_true_eq]
    omega
  rw [e1]
  unfold IntOp.minsi
  rw [if_neg]
  simp only [BitVec.slt, h7, decide_eq_true_eq]
  omega

/-- The region finds the index words as the argument clamped word by word into `[0, 7]`, as one column. -/
theorem V_idx_eq :
    (V m c main_v14 : S16384x1.Idx → BitVec 32)
      = shapeCast S16384x1
          (minsi (broadcastInDim S16384 ![] bcast_S_S16384 (constantI S_ 32 7#32))
            (maxsi (broadcastInDim S16384 ![] bcast_S_S16384 (constantI S_ 32 0#32))
              (m ((c : Thread nD τ).loc main_arg1) : S16384.Idx → BitVec 32)))
          shapeCasts_S16384_S16384x1 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-- The index words as a one-column matrix: clamped into `[0, 7]`, which leaves a word in range as it is. -/
theorem V_idx (r : Fin 16384)
    (hv : 0 ≤ ((m ((c : Thread nD τ).loc main_arg1) : S16384.Idx → BitVec 32) (ix1 r)).toInt
      ∧ ((m ((c : Thread nD τ).loc main_arg1) : S16384.Idx → BitVec 32) (ix1 r)).toInt < 8) :
    (V m c main_v14 : S16384x1.Idx → BitVec 32) (ix2 r (0 : Fin 1)) = (m ((c : Thread nD τ).loc main_arg1) : S16384.Idx → BitVec 32) (ix1 r) := by
  rw [V_idx_eq]
  -- entry (r, 0) of the column is entry r of the vector
  refine (shapeCast_apply _ shapeCasts_S16384_S16384x1 (ix2 r (0 : Fin 1)) (ix1 r) (by
    rw [Shape.rowMajor_val_one, Shape.rowMajor_val_two]
    show r.val = r.val * 1 + (0 : Fin 1).val
    simp)).trans ?_
  -- there the clamp acts on the one word, against the constants 7 and 0
  exact clamp07_of_inRange _ hv

end Cert.KernelIdeal.Mlp

end
-- ==== Proof.RegionOut.lean ====
/-
  The region's output array after the tiled run, as one function of the argument arrays.

  The grid has 32 points; point `t` sees rows `512·t … 512·t + 511` of the samples and of the index words, and every
  weight array whole.  So row `p` of the block a point writes back is sample `512·t + p` through the three layers, and
  the 32 blocks tile the 16384 rows: the array ends holding, at row `r`, sample `r` through the three layers at its bucket.
-/
import proofs.«430041_j79096117723303_3_alg».proof.Proof.Gen.KernelIdeal.Frame
import proofs.«430041_j79096117723303_3_alg».proof.Proof.BlockValue
import proofs.«430041_j79096117723303_3_alg».proof.Proof.HostSide
import Idealize.ShloMosaic.Lib.Pipeline.Value

noncomputable section

namespace Cert.KernelIdeal.Mlp

open Idealize.ShloMosaic Idealize.ShloMosaic.TcCoe Idealize.ShloMosaic.ValueIdx Cert.BucketMlp Cert.KernelIdeal Cert.KernelIdeal.Gen Idealize.SL.Sem
open Idealize.ShloMosaic.Pipeline (Dat)

variable (m : (ℓ : Loc nD τ sig) → Buf (Elt Ideal) ℓ) (c : Dev nD)

/-! ## The region's result as one function of the arguments -/

/-- Sample `r` through the three layers at the bucket its index word names, the weights as given. -/
def rowOf (r : Fin 16384) : EReal :=
  moeRow (fun k => ((m ((c : Thread nD τ).loc main_arg0)) : S16384x2048.Idx → EReal) (ix2 r k))
    (bucketOf (((m ((c : Thread nD τ).loc main_arg1)) : S16384.Idx → BitVec 32) (ix1 r)))
    (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The region's result `[16384, 1]`: row `r` holds sample `r`'s value. -/
def rowsOut : S16384x1.Idx → EReal := fun i => rowOf m c (⟨(i 0).val, (i 0).isLt⟩ : Fin 16384)

/-- The region's result at the index of sample `r`. -/
theorem rowsOut_apply (r : Fin 16384) :
    rowsOut m c (ix2 r (0 : Fin 1))
      = moeRow (fun k => ((m ((c : Thread nD τ).loc main_arg0)) : S16384x2048.Idx → EReal) (ix2 r k))
          (bucketOf (((m ((c : Thread nD τ).loc main_arg1)) : S16384.Idx → BitVec 32) (ix1 r)))
          (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := rfl

/-! ## The windows' blocks as parts of their arrays -/

/-- The printed index maps over the 32 grid points: the sample rows, the index words and the result move down one block
    of 512 rows per point; every weight window stays on its whole array. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_8.index t (0 : Fin 2) = t.val ∧ win0_8.index t (1 : Fin 2) = 0 :=
  (by decide +kernel : ∀ t : Fin grid0.N, _)

/-- The weight windows' block index is zero on both axes at every point. -/
theorem idx_whole : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-- Row `p` of the index words' block at point `t` is word `512·t + p` of the column the region finds. -/
theorem word_block_apply (t : Fin cfg0.N) (p : Fin 512) (r : Fin 16384) (hr : r.val = 512 * t.val + p.val) :
    (iblk m c 1 t : Vec Ideal S512x1 .i32) (ix2 p (0 : Fin 1))
      = (V m c main_v14 : S16384x1.Idx → BitVec 32) (ix2 r (0 : Fin 1)) := by
  obtain ⟨-, -, e0, e1, -⟩ := idx_facts t
  unfold iblk
  rw [View.read_apply]
  show V m c main_v14 _ = V m c main_v14 _
  congr 1
  funext a
  apply Fin.ext
  match a with
  | ⟨0, _⟩ => show win0_1.index t (0 : Fin 2) * 512 + 1 * p.val = r.val; rw [e0, hr]; omega
  | ⟨1, _⟩ => show win0_1.index t (1 : Fin 2) * 1 + 1 * 0 = 0; rw [e1]

/-- The first weights' block is the whole array at every point. -/
theorem w1_block (t : Fin cfg0.N) : (iblk m c 2 t : Vec Ideal S2048x2048 .f32) = V m c main_v0 := by
  obtain ⟨⟨e0, e1⟩, -⟩ := idx_whole t
  funext y
  unfold iblk
  rw [View.read_apply]
  show V m c main_v0 _ = V m c main_v0 y
  congr 1
  funext a
  apply Fin.ext
  match a with
  | ⟨0, _⟩ => show win0_2.index t (0 : Fin 2) * 2048 + 1 * (y 0).val = (y 0).val; rw [e0]; omega
  | ⟨1, _⟩ => show win0_2.index t (1 : Fin 2) * 2048 + 1 * (y 1).val = (y 1).val; rw [e1]; omega

/-- Row `p` of the samples' block at point `t` is row `512·t + p` of the samples as launched. -/
theorem x_block_apply (t : Fin cfg0.N) (p : Fin 512) (k : Fin 2048) (r : Fin 16384) (hr : r.val = 512 * t.val + p.val) :
    (iblk m c 0 t : Vec Ideal S512x2048 .f32) (ix2 p k)
      = (m ((c : Thread nD τ).loc main_arg0) : S16384x2048.Idx → EReal) (ix2 r k) := by
  obtain ⟨e0, e1, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t (0 : Fin 2) * 512 + 1 * p.val = r.val; rw [e0, hr]; omega
  | ⟨1, _⟩ => show win0_0.index t (1 : Fin 2) * 2048 + 1 * k.val = k.val; rw [e1]; omega

/-- So is the first bias's, -/
theorem b1_block (t : Fin cfg0.N) : (iblk m c 3 t : Vec Ideal S1x2048 .f32) = V m c main_v1 := by
  obtain ⟨-, ⟨e0, e1⟩, -⟩ := idx_whole t
  funext y
  unfold iblk
  rw [View.read_apply]
  show V m c main_v1 _ = V m c main_v1 y
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 2048 + 1 * (y 1).val = (y 1).val; rw [e1]; omega

/-- the second weights', -/
theorem w2_block (t : Fin cfg0.N) : (iblk m c 4 t : Vec Ideal S256x1024 .bf16) = V m c main_v6 := by
  obtain ⟨-, -, ⟨e0, e1⟩, -⟩ := idx_whole t
  funext y
  unfold iblk
  rw [View.read_apply]
  show V m c main_v6 _ = V m c main_v6 y
  congr 1
  funext a
  apply Fin.ext
  match a with
  | ⟨0, _⟩ => show win0_4.index t (0 : Fin 2) * 256 + 1 * (y 0).val = (y 0).val; rw [e0]; omega
  | ⟨1, _⟩ => show win0_4.index t (1 : Fin 2) * 1024 + 1 * (y 1).val = (y 1).val; rw [e1]; omega

/-- the second bias's, -/
theorem b2_block (t : Fin cfg0.N) : (iblk m c 5 t : Vec Ideal S1x1024 .f32) = V m c main_v9 := by
  obtain ⟨-, -, -, ⟨e0, e1⟩, -⟩ := idx_whole t
  funext y
  unfold iblk
  rw [View.read_apply]
  show V m c main_v9 _ = V m c main_v9 y
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 1024 + 1 * (y 1).val = (y 1).val; rw [e1]; omega

/-- the third weights' -/
theorem w3_block (t : Fin cfg0.N) : (iblk m c 6 t : Vec Ideal S64x8 .bf16) = V m c main_v11 := by
  obtain ⟨-, -, -, -, ⟨e0, e1⟩, -⟩ := idx_whole t
  funext y
  unfold iblk
  rw [View.read_apply]
  show V m c main_v11 _ = V m c main_v11 y
  congr 1
  funext a
  apply Fin.ext
  match a with
  | ⟨0, _⟩ => show win0_6.index t (0 : Fin 2) * 64 + 1 * (y 0).val = (y 0).val; rw [e0]; omega
  | ⟨1, _⟩ => show win0_6.index t (1 : Fin 2) * 8 + 1 * (y 1).val = (y 1).val; rw [e1]; omega

/-- and the third bias's. -/
theorem b3_block (t : Fin cfg0.N) : (iblk m c 7 t : Vec Ideal S1x8 .f32) = V m c main_v12 := by
  obtain ⟨-, -, -, -, -, e0, e1⟩ := idx_whole t
  funext y
  unfold iblk
  rw [View.read_apply]
  show V m c main_v12 _ = V m c main_v12 y
  congr 1
  funext a
  apply Fin.ext
  match a with
  | ⟨0, _⟩ => show win0_7.index t (0 : Fin 2) * 1 + 1 * (y 0).val = (y 0).val; rw [e0]; omega
  | ⟨1, _⟩ => show win0_7.index t (1 : Fin 2) * 8 + 1 * (y 1).val = (y 1).val; rw [e1]; omega

/-! ## What a grid point writes back, and the array after the last point -/

/-- Row `p` of what point `t` leaves in its output block is sample `r = 512·t + p`: the row's index word is word `r`,
    which is in range; the block's row is then the sample through the layers as the program is handed them; and the
    weights the region finds are the given ones transposed, padded and as one-row matrices, which is the law
    `kRow_eq_moeRow`. -/
theorem point_row
    (hidx : ∀ r : Fin 16384,
      0 ≤ (((m ((c : Thread nD τ).loc main_arg1)) : S16384.Idx → BitVec 32) (ix1 r)).toInt
        ∧ (((m ((c : Thread nD τ).loc main_arg1)) : S16384.Idx → BitVec 32) (ix1 r)).toInt < 8)
    (t : Fin cfg0.N) (p : Fin 512) (r : Fin 16384) (hr : r.val = 512 * t.val + p.val) :
    out0_8 (F := Ideal) (iblk m c 0 t) (iblk m c 1 t) (iblk m c 2 t) (iblk m c 3 t) (iblk m c 4 t) (iblk m c 5 t) (iblk m c 6 t) (iblk m c 7 t) (ix2 p (0 : Fin 1)) = rowOf m c r := by
  have hw : (iblk m c 1 t : Vec Ideal S512x1 .i32) (ix2 p (0 : Fin 1))
      = ((m ((c : Thread nD τ).loc main_arg1)) : S16384.Idx → BitVec 32) (ix1 r) :=
    (word_block_apply m c t p r hr).trans (V_idx m c r (hidx r))
  have hx : (fun k : Fin 2048 => (iblk m c 0 t : Vec Ideal S512x2048 .f32) (ix2 p k))
      = fun k : Fin 2048 => ((m ((c : Thread nD τ).loc main_arg0)) : S16384x2048.Idx → EReal) (ix2 r k) :=
    funext fun k => x_block_apply m c t p k r hr
  refine (block_out_apply (iblk m c 0 t) (iblk m c 1 t) (iblk m c 2 t) (iblk m c 3 t) (iblk m c 4 t) (iblk m c 5 t) (iblk m c 6 t) (iblk m c 7 t) p (by rw [hw]; exact hidx r)).trans ?_
  rw [hx, hw]
  unfold rowOf
  exact kRow_eq_moeRow _ _ (iblk m c 2 t) (iblk m c 3 t) (iblk m c 4 t) (iblk m c 5 t) (iblk m c 6 t) (iblk m c 7 t)
    (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (fun k n => (congrFun (w1_block m c t) (ix2 k n)).trans (V_w1t m c k n))
    (fun n => (congrFun (b1_block m c t) (ix2 (0 : Fin 1) n)).trans (V_b1r m c n))
    (fun k b j => (congrFun (w2_block m c t) (ix2 k (slot128 b j))).trans (V_w2t m c k b j))
    (fun b j => (congrFun (b2_block m c t) (ix2 (0 : Fin 1) (slot128 b j))).trans (V_b2p m c b j))
    (fun k b => (congrFun (w3_block m c t) (ix2 k b)).trans (V_w3t m c k b))
    (fun b => (congrFun (b3_block m c t) (ix2 (0 : Fin 1) b)).trans (V_b3r m c b))

/-- Point `t` writes back block `t` of `rowsOut`: the body's buffer is written back as it is, row `p` of it is
    `point_row`'s sample `512·t + p`, and that is the row of the array the block's row `p` sits at. -/
theorem writeback_eq
    (hidx : ∀ r : Fin 16384,
      0 ≤ (((m ((c : Thread nD τ).loc main_arg1)) : S16384.Idx → BitVec 32) (ix1 r)).toInt
        ∧ (((m ((c : Thread nD τ).loc main_arg1)) : S16384.Idx → BitVec 32) (ix1 r)).toInt < 8)
    (t : Fin cfg0.N) :
    (dats m 0 c).flushed 8 t = ((cfg0.win 8).blk t).view.read (Elt Ideal) (rowsOut m c) := by
  show (cfg0.win 8).cut (grid0.coords t) ((dats m 0 c).after 8 t) = _
  rw [after0_8]
  funext y
  have hN : grid0.N = 32 := N_0
  have ht : t.val < 32 := hN ▸ t.isLt
  have hp : (y 0).val < 512 := (y 0).isLt
  have hq : (y 1).val < 1 := (y 1).isLt
  obtain ⟨-, -, -, -, e0, e1⟩ := idx_facts t
  -- the row inside the block, and the sample it is
  have hy : (cfg0.win 8).xinj (grid0.coords t) y = ix2 (⟨(y 0).val, hp⟩ : Fin 512) (0 : Fin 1) := by
    funext a
    apply Fin.ext
    match a with
    | ⟨0, _⟩ => rfl
    | ⟨1, _⟩ => show (y 1).val = 0; omega
  have he : ((cfg0.win 8).blk t).view.emb y
      = ix2 (⟨512 * t.val + (y 0).val, by omega⟩ : Fin 16384) (0 : Fin 1) := by
    funext a
    apply Fin.ext
    match a with
    | ⟨0, _⟩ => show win0_8.index t (0 : Fin 2) * 512 + 1 * (y 0).val = 512 * t.val + (y 0).val; rw [e0]; omega
    | ⟨1, _⟩ => show win0_8.index t (1 : Fin 2) * 1 + 1 * (y 1).val = 0; rw [e1]; omega
  show out0_8 (iblk m c 0 t) (iblk m c 1 t) (iblk m c 2 t) (iblk m c 3 t) (iblk m c 4 t) (iblk m c 5 t) (iblk m c 6 t) (iblk m c 7 t) ((cfg0.win 8).xinj (grid0.coords t) y)
    = rowsOut m c (((cfg0.win 8).blk t).view.emb y)
  rw [hy, he]
  exact point_row m c hidx t _ _ rfl

/-- An index of the result array is in point `t`'s block iff each coordinate is in the block's range on its axis. -/
theorem mem_rows (t : Fin cfg0.N) (i : S16384x1.Idx) :
    i ∈ ((cfg0.win 8).blk t).view.set
      ↔ ∀ a : Fin 2, win0_8.index t a * S512x1.size a ≤ (i a).val
          ∧ (i a).val < win0_8.index t a * S512x1.size a + S512x1.size a := by
  show i ∈ ((View.whole main_v15).slice (win0_8.rect t)).set ↔ _
  rw [View.set_slice_whole, Rect.mem_set_unit]
  exact Iff.rfl

/-- Row `r` lies in the block of point `r / 512`, which writes back: the 32 blocks of 512 rows tile the array. -/
theorem rows_covered (i : S16384x1.Idx) :
    ∃ t : Fin cfg0.N, (cfg0.win 8).flush t = true ∧ i ∈ ((cfg0.win 8).blk t).view.set := by
  have hi0 : (i 0).val < 16384 := (i 0).isLt
  have hi1 : (i 1).val < 1 := (i 1).isLt
  have hN : grid0.N = 32 := N_0
  have hlt : (i 0).val / 512 < grid0.N := by rw [hN]; omega
  obtain ⟨-, -, -, -, e0, e1⟩ := idx_facts (⟨(i 0).val / 512, hlt⟩ : Fin cfg0.N)
  refine ⟨⟨(i 0).val / 512, hlt⟩, flush0_8 _, ?_⟩
  rw [mem_rows]
  intro a
  match a with
  | ⟨0, _⟩ =>
    show win0_8.index ⟨(i 0).val / 512, hlt⟩ (0 : Fin 2) * 512 ≤ (i 0).val
      ∧ (i 0).val < win0_8.index ⟨(i 0).val / 512, hlt⟩ (0 : Fin 2) * 512 + 512
    rw [e0]
    show (i 0).val / 512 * 512 ≤ (i 0).val ∧ (i 0).val < (i 0).val / 512 * 512 + 512
    omega
  | ⟨1, _⟩ =>
    show win0_8.index ⟨(i 0).val / 512, hlt⟩ (1 : Fin 2) * 1 ≤ (i 1).val
      ∧ (i 1).val < win0_8.index ⟨(i 0).val / 512, hlt⟩ (1 : Fin 2) * 1 + 1
    rw [e1]
    omega

/-- After the last point the region's output array holds `rowsOut`: every point writes back its block of that one
    function, and the blocks cover the array. -/
theorem region_out
    (hidx : ∀ r : Fin 16384,
      0 ≤ (((m ((c : Thread nD τ).loc main_arg1)) : S16384.Idx → BitVec 32) (ix1 r)).toInt
        ∧ (((m ((c : Thread nD τ).loc main_arg1)) : S16384.Idx → BitVec 32) (ix1 r)).toInt < 8) :
    (dats m 0 c).arrAt 8 cfg0.N = rowsOut m c :=
  (dats m 0 c).arrAt_eq_of_cover 8 (rowsOut m c) (fun t _ => writeback_eq m c hidx t) rows_covered

end Cert.KernelIdeal.Mlp

end
-- ==== Proof.KernelValue.lean ====
/-
  The tiled program's run with its result named.

  After the region one host operation remains: the region's [16384, 1] output viewed as [16384, 1, 1].  A view changes no
  entry — entry (r, 0, 0) of the result is entry (r, 0) of the region's output, which is sample `r` through the three
  layers at its bucket —, and no operation before or after the region writes an argument array.
-/
import proofs.«430041_j79096117723303_3_alg».proof.Proof.Gen.KernelIdeal.Frame
import proofs.«430041_j79096117723303_3_alg».proof.Proof.RegionOut
import Idealize.ShloMosaic.Lib.Pipeline.Value

noncomputable section

namespace Cert.KernelIdeal.Mlp

open Idealize.ShloMosaic Idealize.ShloMosaic.TcCoe Idealize.ShloMosaic.ValueIdx Cert.BucketMlp Cert.KernelIdeal Cert.KernelIdeal.Gen Idealize.SL.Sem

/-! ## The host line after the region -/

/-- A `[16384, 1]` array viewed as `[16384, 1, 1]` and read at sample `r` is the array at row `r`: both indices sit
    at row-major position `r`. -/
theorem cast_sample {α : Type} (y : S16384x1.Idx → α) (r : Fin 16384) :
    shapeCast S16384x1x1 y shapeCasts_S16384x1_S16384x1x1 (ix3 r (0 : Fin 1) (0 : Fin 1)) = y (ix2 r (0 : Fin 1)) :=
  shapeCast_apply y shapeCasts_S16384x1_S16384x1x1 _ _ (by
    rewrite [Shape.rowMajor_val_two, Shape.rowMajor_val_three]
    show r.val * 1 + 0 = (r.val * 1 + 0) * 1 + 0
    omega)

/-- The result buffer after the one host line that follows the region: that line views the region's output array,
    which holds every sample's value, as `[16384, 1, 1]`. -/
theorem tail_out (m : (ℓ : Loc nD τ sig) → Buf (Elt Ideal) ℓ) (c : Dev nD)
    (hidx : ∀ r : Fin 16384,
      0 ≤ ((m ((c.tc : Thread nD τ).loc main_arg1) : S16384.Idx → BitVec 32) (ix1 r)).toInt
        ∧ ((m ((c.tc : Thread nD τ).loc main_arg1) : S16384.Idx → BitVec 32) (ix1 r)).toInt < 8) :
    Pipeline.afterTail₀ cfgs (dats m) 0 (V0 m) [hostOps1] c main_v16
      = outArr (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7)) := by
  have e : Pipeline.withArrays (cfgs 0).spec c (V0 m c) (fun w => (dats m 0 c).arrAt w (cfgs 0).N) (Proc.devRef .tc main_v15)
      = rowsOut m c :=
    (Pipeline.withArrays_arr spec0 launch0.win.arr_inj c (V0 m c) (fun w => (dats m 0 c).arrAt w cfg0.N) 8).trans (region_out m c hidx)
  unfold Pipeline.afterTail₀
  show StableHlo.after hostOps1 _ (Proc.devRef .tc main_v16) = _
  after_results
  funext i
  rw [idx_eq_sample i, outArr_apply]
  show shapeCast S16384x1x1 (Pipeline.withArrays (cfgs 0).spec c (V0 m c) (fun w => (dats m 0 c).arrAt w (cfgs 0).N) (Proc.devRef .tc main_v15))
    shapeCasts_S16384x1_S16384x1x1 (ix3 _ (0 : Fin 1) (0 : Fin 1)) = _
  rw [e, cast_sample, rowsOut_apply]

/-! ## The run -/

/-- The tiled program's run, with its result named: when every index word is in range, every weakly fair execution
    ends with the result array holding each sample through the three layers at its bucket, and the arguments as they were. -/
theorem kernel_run (m : (ℓ : Loc nD τ sig) → Buf (Elt Ideal) ℓ) (ρ : Dev nD → PrngReg)
    (hidx : ∀ (c : Dev nD) (r : Fin 16384),
      0 ≤ ((m ((c.tc : Thread nD τ).loc main_arg1) : S16384.Idx → BitVec 32) (ix1 r)).toInt
        ∧ ((m ((c.tc : Thread nD τ).loc main_arg1) : S16384.Idx → BitVec 32) (ix1 r)).toInt < 8) :
    θ_run defs (onTc (τ := τ) (main (F := Ideal))) ⟨m, fun _ => 0, ρ⟩ (fun r => ∀ c : Dev nD,
      r.2.mem ((c.tc : Thread nD τ).loc main_v16)
        = outArr (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨((h c).2 main_v16 (Pipeline.mem_restRefs_of main_v16 (by decide) (by decide))).trans (tail_out m c (hidx c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Mlp

end
-- ==== Proof.PreRange.lean ====
/-
  What the precondition says of the index words: every one of the 16384 is, read signed, in `[0, 8)`.

  The precondition is a conjunction folded into one bit; its last conjunct is the `and`-reduction over all samples of
  `(idx ≥ 0) and (idx < 8)`.  A reduction by `and` that is 1 had a 1 at every sample, and a signed comparison that is
  1 says the inequality of the signed values.
-/
import proofs.«430041_j79096117723303_3_alg».proof.Pre_finite_inputs
import Idealize.ShloMosaic.Lib.ReduceAll
import Idealize.ShloMosaic.Lib.Affine
import Idealize.ShloMosaic.Lib.ValueIdx

noncomputable section

namespace Cert.Pre_finite_inputs.Range

open Idealize.ShloMosaic Idealize.ShloMosaic.ValueIdx Cert.Pre_finite_inputs

instance : Subsingleton S_.Idx := ⟨fun a b => funext fun d => d.elim0⟩

/-- Under the precondition every index word is in `[0, 8)` as a signed integer. -/
theorem idx_in_range {F : FTy → Type} [FloatOps F] [hP : Facts]
    (a0 : FVec F S16384x2048 .f32) (a1 : IVec S16384 32) (a2 : FVec F S2048x2048 .f32) (a3 : FVec F S2048 .f32)
    (a4 : FVec F S512x256 .f32) (a5 : FVec F S512 .f32) (a6 : FVec F S8x64 .f32) (a7 : FVec F S8 .f32)
    (h : fn (F := F) a0 a1 a2 a3 a4 a5 a6 a7 = fun _ => 1#1) (r : Fin 16384) :
    0 ≤ (a1 (ix1 r)).toInt ∧ (a1 (ix1 r)).toInt < 8 := by
  have h0 := congrFun h ix0
  dsimp only [fn, fn_part1, fn_part2] at h0
  have h39 := (IntOp.andi_eq_one.mp h0).2
  have hel := IntOp.andi_eq_one.mp (Host.reduce_andi_all _ _ _ _ _ h39 (ix1 r))
  have hge : (0#32 : BitVec 32).toInt ≤ (a1 (ix1 r)).toInt := IntOp.cmpi_sge.mp hel.1
  have hlt : (a1 (ix1 r)).toInt < (8#32 : BitVec 32).toInt := IntOp.cmpi_slt.mp hel.2
  have e0 : (0#32 : BitVec 32).toInt = 0 := by decide
  have e8 : (8#32 : BitVec 32).toInt = 8 := by decide
  rw [e0] at hge
  rw [e8] at hlt
  exact ⟨hge, hlt⟩

end Cert.Pre_finite_inputs.Range

end
-- ==== Proof.lean ====
/-
  The bucketed three-layer network: the tiled program against its plain reference, over the extended reals.

  Both programs take 16384 samples `x[r, :]` (2048 features), one bucket index per sample, and three linear layers whose
  outputs are grouped by bucket (8 buckets × 256, 8 × 64, 8 × 1).  Each computes every layer for ALL buckets and keeps
  the sample's own bucket's slice, clamping the first two slices to `[0, 1]`:
  `out[r] = W3[b,:] · clip(W2[64b+·,:] · clip(W1[256b+·,:] · x[r,:] + b1[256b+·]) + b2[64b+·]) + b3[b]`, `b` the sample's bucket
  (Proof/Spec.lean).  The reference selects the slice by a gather along the bucket axis; the tiled program by a
  one-hot row: it multiplies every bucket's slice by the indicator of the sample's bucket and adds the eight products
  up — on the extended reals `a · 0 = 0`, `a · 1 = a` and `0 + a = a` hold for every `a`, so the sum IS the bucket's slice,
  with no appeal to finiteness.  The program is handed the weights transposed, the second layer's 64 outputs per bucket
  spread to 128 columns (the upper 64 never read) and the biases as one-row matrices; a change of float format is the
  identity on the extended reals.

  The two selections agree only for an index inside `[0, 8)`: outside it the reference wraps a negative index or
  fills with a junk value, while the tiled program clamps.  The statement therefore carries the indices' range in its
  precondition (Proof/PreRange.lean reads it back), and both sides' values are stated under it.

  The modules: Spec (the function, both layouts, the selection laws) · Layer1, Layer2, Layer3 (the body's arithmetic read
  at an index) · BlockValue (a grid point's output block, row by row) · HostSide (the operands as the region finds them)
  · KernelValue (the blocks cover the result array; the run) · LibGatherBatched, RefTake, RefValue (the reference's
  gathers and its stages) · RefRun, RefRead (the reference's run and its stages) · PreRange.
-/
import proofs.«430041_j79096117723303_3_alg».proof.Defs
import proofs.«430041_j79096117723303_3_alg».proof.Proof.Gen.Kernel
import proofs.«430041_j79096117723303_3_alg».proof.Proof.Gen.Kernel.Frame
import proofs.«430041_j79096117723303_3_alg».proof.Proof.Gen.KernelIdeal
import proofs.«430041_j79096117723303_3_alg».proof.Proof.Gen.KernelIdeal.Frame
import proofs.«430041_j79096117723303_3_alg».proof.Proof.Gen.ReferenceIdeal
import proofs.«430041_j79096117723303_3_alg».proof.Proof.Gen.Pre_finite_inputs
import proofs.«430041_j79096117723303_3_alg».proof.Proof.RefRun
import proofs.«430041_j79096117723303_3_alg».proof.Proof.RefRead
import proofs.«430041_j79096117723303_3_alg».proof.Proof.RefValue
import proofs.«430041_j79096117723303_3_alg».proof.Proof.KernelValue
import proofs.«430041_j79096117723303_3_alg».proof.Proof.PreRange
import Idealize.ShloMosaic.Adequacy
import Idealize.ShloMosaic.Init

noncomputable section

namespace Cert.Proof

open Idealize.ShloMosaic Idealize.ShloMosaic.TcCoe Idealize.ShloMosaic.ValueIdx Idealize.SL.Sem

/-- The program as printed runs and leaves its arguments alone. -/
theorem frame_p : Cert.frame_Kernel := fun m ρ _ => Cert.Kernel.Gen.frame m ρ

/-- So does its reading over the extended reals. -/
theorem frame_pi : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Nothing was rewritten on the way to the extended reals. -/
theorem preserves : Cert.preserves_Kernel_KernelIdeal := trivial

/-- Under the precondition every index word of every device is in `[0, 8)`. -/
theorem idx_range (m : (ℓ : Loc Cert.KernelIdeal.nD Cert.KernelIdeal.τ Cert.KernelIdeal.sig) → Buf (Elt Ideal) ℓ)
    (hpre : Cert.Pre_KernelIdeal m) (c : Dev Cert.KernelIdeal.nD) (r : Fin 16384) :
    0 ≤ ((m ((c.tc : Thread Cert.KernelIdeal.nD Cert.KernelIdeal.τ).loc Cert.KernelIdeal.main_arg1) : Cert.KernelIdeal.S16384.Idx → BitVec 32) (ix1 r)).toInt
      ∧ ((m ((c.tc : Thread Cert.KernelIdeal.nD Cert.KernelIdeal.τ).loc Cert.KernelIdeal.main_arg1) : Cert.KernelIdeal.S16384.Idx → BitVec 32) (ix1 r)).toInt < 8 :=
  Cert.Pre_finite_inputs.Range.idx_in_range (F := Ideal) _ _ _ _ _ _ _ _ (hpre c) r

/-- From memories that agree on the arguments both programs end with every sample through the three layers at its
    bucket: the tiled program's blocks cover that array, the reference's stages compose to it. -/
theorem algebraic : Cert.algebraic_KernelIdeal_ReferenceIdeal := by
  intro m ρ m' ρ' hpre hagree
  refine ⟨_, Cert.KernelIdeal.Mlp.kernel_run m ρ (idx_range m hpre), ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v29_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact Cert.ReferenceIdeal.Mlp.ref_value _ _ _ _ _ _ _ _ (idx_range m hpre c)

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
